-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64x16 : Shape := ⟨2, ![64, 16]⟩
abbrev S10000x16 : Shape := ⟨2, ![10000, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S64x16 .f32) (main_arg5 : FVec F S10000x16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S10000x16 .f32 := Host.absf main_arg5
  let main_cst_8 : FVec F S_ .f32 := constant S_ .f32 0x7F800000#32
  let main_v25 : FVec F S10000x16 .f32 := broadcastInDim S10000x16 ![] bcast_S_S10000x16 main_cst_8
  let main_v26 : IVec S10000x16 1 := cmpf .olt main_v24 main_v25
  let main_c_9 : IVec S_ 1 := constantI S_ 1 1#1
  let main_v27 : IVec S_ 1 := (fun x v => Host.reduce IntOp.andi x v reducesTo_S10000x16_S_d0_1 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x64 .f32) (main_arg3 : FVec F S64x16 .f32) (main_arg4 : FVec F S64x16 .f32) (main_arg5 : FVec F S10000x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64x16 : Shape := ⟨2, ![64, 16]⟩
abbrev S10000x16 : Shape := ⟨2, ![10000, 16]⟩
abbrev S64x32 : Shape := ⟨2, ![64, 32]⟩
abbrev S10000x32 : Shape := ⟨2, ![10000, 32]⟩
abbrev S128x32 : Shape := ⟨2, ![128, 32]⟩
abbrev S400x10000 : Shape := ⟨2, ![400, 10000]⟩
abbrev S400x32 : Shape := ⟨2, ![400, 32]⟩
abbrev S400x16 : Shape := ⟨2, ![400, 16]⟩

abbrev nBuf : Space → Nat
  | .hbm => 11
  | .vmem => 21
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x16, .f32⟩
  | .hbm, ⟨4, _⟩ => ⟨S64x16, .f32⟩
  | .hbm, ⟨5, _⟩ => ⟨S10000x16, .f32⟩
  | .hbm, ⟨6, _⟩ => ⟨S64x32, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S64x32, .f32⟩
  | .local _ .vmem, ⟨3, _⟩ => ⟨S10000x32, .f32⟩
  | .local _ .vmem, ⟨4, _⟩ => ⟨S400x10000, .f32⟩
  | .local _ .vmem, ⟨5, _⟩ => ⟨S400x10000, .f32⟩
  | .local _ .vmem, ⟨6, _⟩ => ⟨S10000x32, .f32⟩
  | .local _ .vmem, ⟨7, _⟩ => ⟨S400x32, .f32⟩
  | .local _ .vmem, ⟨8, _⟩ => ⟨S400x32, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S400x16, .f32⟩
  | .local _ .vmem, ⟨17, _⟩ => ⟨S400x16, .f32⟩
  | .local _ .vmem, ⟨18, _⟩ => ⟨S10000x16, .f32⟩
  | .local _ .vmem, ⟨19, _⟩ => ⟨S400x10000, .f32⟩
  | .local _ .vmem, ⟨20, _⟩ => ⟨S400x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S64x16_S64x16_S64x32_d1 : Shape.Concatenates [S64x16, S64x16] S64x32 1
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S10000x128_S10000x128_0_0 : ∀ a, (![0, 0] : Fin 2 → Nat) a + S10000x128.size a ≤ S10000x128.size a
  h_S10000x128 : 0 < S10000x128.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  slices_S400x32_o0_0_S400x16 : S400x32.Slices ![0, 0] S400x16
  slices_S400x32_o0_16_S400x16 : S400x32.Slices ![0, 16] S400x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S128x64_S64x32_S128x32_1_0_0_1_n_n_wf : DotDims.WF S128x64 S64x32 S128x32 [1] [0] [0] [1] [] []
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x16_S10000x16_S400x10000_1_1_0_0_n_n_wf : DotDims.WF S400x16 S10000x16 S400x10000 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .f32 = 32 ∨ (Rect.block (s := S10000x32) S400x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64x16 : Shape := ⟨2, ![64, 16]⟩
abbrev S10000x16 : Shape := ⟨2, ![10000, 16]⟩
abbrev S10000x64 : Shape := ⟨2, ![10000, 64]⟩
abbrev S_ : Shape := ⟨0, ![]⟩
abbrev S16x10000 : Shape := ⟨2, ![16, 10000]⟩

abbrev nBuf : Space → Nat
  | .hbm => 23
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x16, .f32⟩
  | .hbm, ⟨4, _⟩ => ⟨S64x16, .f32⟩
  | .hbm, ⟨5, _⟩ => ⟨S10000x16, .f32⟩
  | .hbm, ⟨6, _⟩ => ⟨S10000x64, .f32⟩
  | .hbm, ⟨7, _⟩ => ⟨S10000x64, .f32⟩
  | .hbm, ⟨8, _⟩ => ⟨S10000x16, .f32⟩
  | .hbm, ⟨9, _⟩ => ⟨S10000x16, .f32⟩
  | .hbm, ⟨10, _⟩ => ⟨S_, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S16x10000, .f32⟩
  | .hbm, ⟨22, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.Region0.lean ====
/-
  The first pallas_call, P = features · (W_base · W_cat), with no grid: every window is its whole array.
  For any contents V of the core's buffers when the region is entered: what the body leaves in the output buffer
  (the two products, stored whole), the body's triple, the pipeline's proof data and the body obligation.
-/
import proofs.«128000_g55903294324759_cont_9to1c4b_598_2_alg».proof.Proof.Gen.Kernel.Launch
import proofs.«128000_g55903294324759_cont_9to1c4b_598_2_alg».proof.Proof.Gen.Kernel.Skeleton
import proofs.«128000_g55903294324759_cont_9to1c4b_598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the one grid point, read off its array as the region finds it: the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features window's staging buffer holds the whole of features. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The W_base window's staging buffer holds the whole of W_base. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The W_cat window's staging buffer holds the whole of W_cat. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_f : Rect S10000x128 := Rect.unit (s := S10000x128) ![0, 0] S10000x128.size inb_S10000x128_S10000x128_0_0
abbrev r0_wb : Rect S128x64 := Rect.unit (s := S128x64) ![0, 0] S128x64.size inb_S128x64_S128x64_0_0
abbrev r0_wc : Rect S64x32 := Rect.unit (s := S64x32) ![0, 0] S64x32.size inb_S64x32_S64x32_0_0
abbrev r0_out : Rect S10000x32 := Rect.unit (s := S10000x32) ![0, 0] S10000x32.size inb_S10000x32_S10000x32_0_0

/-- What the body leaves in the output buffer: features times the product of W_base and W_cat. -/
def out0_3 (x0 : Vec F S10000x128 .f32) (x1 : Vec F S128x64 .f32) (x2 : Vec F S64x32 .f32) : Vec F S10000x32 .f32 :=
  View.canon [⟨r0_out, k0_pay1 (View.ld x1 r0_wb) (View.ld x2 r0_wc) (View.ld x0 r0_f)⟩]

theorem cover0_3 (p0 : Vec F S10000x32 .f32) (y : S10000x32.Idx) :
    ∃ pc ∈ ([⟨r0_out, p0⟩] : List (View.Piece (Elt F) S10000x32 .f32)), y ∈ pc.1.set :=
  View.cover_of_tiled [⟨r0_out, p0⟩] S10000x32.size (by rfl) y

set_option maxHeartbeats 1000000 in
/-- The body on whole staging memrefs: the inputs are left as they were, the output buffer ends at the product. -/
theorem sound_kernel0 (c : Dev nD) (E : Set ℕ) (arg0 : Memref sig .tc .vmem S10000x128 .f32) (harg0 : arg0.IsWhole)
    (arg1 : Memref sig .tc .vmem S128x64 .f32) (harg1 : arg1.IsWhole) (arg2 : Memref sig .tc .vmem S64x32 .f32) (harg2 : arg2.IsWhole)
    (arg3 : Memref sig .tc .vmem S10000x32 .f32) (harg3 : arg3.IsWhole)
    (x0 : Vec F S10000x128 .f32) (x1 : Vec F S128x64 .f32) (x2 : Vec F S64x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__p_body arg0 harg0 arg1 harg1 arg2 harg2 arg3 harg3) K := by
  simp only [cc0__p_body_eq_skeleton]; unfold cc0__p_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the region finds them; after the body each input's buffer at its array
    and the output's at the product; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at the grid point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at the grid point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.K.Region1.lean ====
/-
  The second pallas_call, G = adj · P, one block of 400 rows of adj per grid point against the whole of P.
  For any contents V of the core's buffers when the region is entered: the block of each window at a grid point,
  what the body leaves in the output window's buffer (the product of the adj block with P, stored whole), the
  body's triple, the pipeline's proof data and the body obligation at every point.
-/
import proofs.«128000_g55903294324759_cont_9to1c4b_598_2_alg».proof.Proof.Gen.Kernel.Launch
import proofs.«128000_g55903294324759_cont_9to1c4b_598_2_alg».proof.Proof.Gen.Kernel.Skeleton
import proofs.«128000_g55903294324759_cont_9to1c4b_598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adj window's staging buffer holds its block of 400 rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The P window's staging buffer holds the whole of P at every point: fetched at the first, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output buffer's one store covers it whole. -/
abbrev r1_out : Rect S400x32 := Rect.unit (s := S400x32) ![0, 0] S400x32.size inb_S400x32_S400x32_0_0
abbrev r1_a : Rect S400x10000 := Rect.unit (s := S400x10000) ![0, 0] S400x10000.size inb_S400x10000_S400x10000_0_0
abbrev r1_p : Rect S10000x32 := Rect.unit (s := S10000x32) ![0, 0] S10000x32.size inb_S10000x32_S10000x32_0_0

/-- What the body leaves in the output window's buffer: the product of the adj block and P. -/
def out1_2 (x0 : Vec F S400x10000 .f32) (x1 : Vec F S10000x32 .f32) : Vec F S400x32 .f32 :=
  View.canon [⟨r1_out, k1_pay1 (View.ld x0 r1_a) (View.ld x1 r1_p)⟩]

theorem cover1_2 (p0 : Vec F S400x32 .f32) (y : S400x32.Idx) :
    ∃ pc ∈ ([⟨r1_out, p0⟩] : List (View.Piece (Elt F) S400x32 .f32)), y ∈ pc.1.set :=
  View.cover_of_tiled [⟨r1_out, p0⟩] S400x32.size (by rfl) y

set_option maxHeartbeats 1000000 in
/-- The body on whole staging memrefs: the inputs are left as they were, the output buffer ends at the product. -/
theorem sound_kernel1 (c : Dev nD) (E : Set ℕ) (i : grid1.Coords) (arg1 : Memref sig .tc .vmem S400x10000 .f32) (harg1 : arg1.IsWhole)
    (arg2 : Memref sig .tc .vmem S10000x32 .f32) (harg2 : arg2.IsWhole) (arg3 : Memref sig .tc .vmem S400x32 .f32) (harg3 : arg3.IsWhole)
    (x0 : Vec F S400x10000 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__g_body i arg1 harg1 arg2 harg2 arg3 harg3) K := by
  simp only [cc1__g_body_eq_skeleton]; unfold cc1__g_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data: the arrays as the region finds them; after the body each input's buffer at its block
    and the output's at the product of the two; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at a grid point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.K.Region2.lean ====
/-
  The third pallas_call, Z = noise · exp(relu(adj · G)[:, 16:]) + relu(adj · G)[:, :16], one block of 400 rows per
  grid point. For any contents V of the core's buffers when the region is entered: the block of each window at a
  grid point, what the body leaves in the output window's buffer, the body's triple, the pipeline's proof data and
  the body obligation at every point.
-/
import proofs.«128000_g55903294324759_cont_9to1c4b_598_2_alg».proof.Proof.Gen.Kernel.Launch
import proofs.«128000_g55903294324759_cont_9to1c4b_598_2_alg».proof.Proof.Gen.Kernel.Skeleton
import proofs.«128000_g55903294324759_cont_9to1c4b_598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adj window's staging buffer holds its block of 400 rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The G window's staging buffer holds the whole of G at every point: fetched at the first, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The noise window's staging buffer holds its block of 400 rows at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S400x10000 := Rect.unit (s := S400x10000) ![0, 0] S400x10000.size inb_S400x10000_S400x10000_0_0
abbrev r2_g : Rect S10000x32 := Rect.unit (s := S10000x32) ![0, 0] S10000x32.size inb_S10000x32_S10000x32_0_0
abbrev r2_z : Rect S400x16 := Rect.unit (s := S400x16) ![0, 0] S400x16.size inb_S400x16_S400x16_0_0

/-- What the body leaves in the output window's buffer: the reparameterised sample of the block's rows. -/
def out2_3 (x0 : Vec F S400x10000 .f32) (x1 : Vec F S10000x32 .f32) (x2 : Vec F S400x16 .f32) : Vec F S400x16 .f32 :=
  View.canon [⟨r2_z, k2_pay1 (View.ld x0 r2_a) (View.ld x1 r2_g) (View.ld x2 r2_z)⟩]

theorem cover2_3 (p0 : Vec F S400x16 .f32) (y : S400x16.Idx) :
    ∃ pc ∈ ([⟨r2_z, p0⟩] : List (View.Piece (Elt F) S400x16 .f32)), y ∈ pc.1.set :=
  View.cover_of_tiled [⟨r2_z, p0⟩] S400x16.size (by rfl) y

set_option maxHeartbeats 1000000 in
/-- The body on whole staging memrefs: the inputs are left as they were, the output buffer ends at the sample. -/
theorem sound_kernel2 (c : Dev nD) (E : Set ℕ) (i : grid2.Coords) (arg1 : Memref sig .tc .vmem S400x10000 .f32) (harg1 : arg1.IsWhole)
    (arg2 : Memref sig .tc .vmem S10000x32 .f32) (harg2 : arg2.IsWhole) (arg3 : Memref sig .tc .vmem S400x16 .f32) (harg3 : arg3.IsWhole)
    (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__lambda_ i arg1 harg1 arg2 harg2 arg3 harg3 arg4 harg4) K := by
  simp only [cc2__lambda__eq_skeleton]; unfold cc2__lambda__skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input's buffer at its block
    and the output's at the sample; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a grid point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.K.Region3.lean ====
/-
  The fourth pallas_call, out = Z · Zᵀ, one block of 400 rows of Z per grid point against the whole of Z: two input
  windows on ONE array, each holding it at half the share. For any contents V of the core's buffers when the region
  is entered: the block of each window at a grid point, what the body leaves in the output window's buffer, the
  body's triple, the pipeline's proof data and the body obligation at every point.
-/
import proofs.«128000_g55903294324759_cont_9to1c4b_598_2_alg».proof.Proof.Gen.Kernel.Launch
import proofs.«128000_g55903294324759_cont_9to1c4b_598_2_alg».proof.Proof.Gen.Kernel.Skeleton
import proofs.«128000_g55903294324759_cont_9to1c4b_598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds its block of 400 rows of Z at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole-Z window's staging buffer holds the whole of Z at every point: fetched at the first, its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_zi : Rect S400x16 := Rect.unit (s := S400x16) ![0, 0] S400x16.size inb_S400x16_S400x16_0_0
abbrev r3_z : Rect S10000x16 := Rect.unit (s := S10000x16) ![0, 0] S10000x16.size inb_S10000x16_S10000x16_0_0
abbrev r3_out : Rect S400x10000 := Rect.unit (s := S400x10000) ![0, 0] S400x10000.size inb_S400x10000_S400x10000_0_0

/-- What the body leaves in the output window's buffer: the block's rows of Z against every row of Z. -/
def out3_2 (x0 : Vec F S400x16 .f32) (x1 : Vec F S10000x16 .f32) : Vec F S400x10000 .f32 :=
  View.canon [⟨r3_out, k3_pay1 (View.ld x0 r3_zi) (View.ld x1 r3_z)⟩]

theorem cover3_2 (p0 : Vec F S400x10000 .f32) (y : S400x10000.Idx) :
    ∃ pc ∈ ([⟨r3_out, p0⟩] : List (View.Piece (Elt F) S400x10000 .f32)), y ∈ pc.1.set :=
  View.cover_of_tiled [⟨r3_out, p0⟩] S400x10000.size (by rfl) y

set_option maxHeartbeats 1000000 in
/-- The body on whole staging memrefs: the inputs are left as they were, the output buffer ends at the product. -/
theorem sound_kernel3 (c : Dev nD) (E : Set ℕ) (i : grid3.Coords) (arg1 : Memref sig .tc .vmem S400x16 .f32) (harg1 : arg1.IsWhole)
    (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__out_body i arg1 harg1 arg2 harg2 arg3 harg3) K := by
  simp only [cc3__out_body_eq_skeleton]; unfold cc3__out_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data: the arrays as the region finds them; after the body each input's buffer at its block
    and the output's at the product; nothing owed; the two windows on Z hold its array at the two halves of the full
    share, the output's at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at a grid point, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.K.Run.lean ====
/-
  The run of the whole program: one stretch of host operations (the concatenation of the two small weight matrices)
  and then the four pallas_calls in order. The contents of the core's buffers at each boundary are a fold from the
  launch memory: a host stretch applies its operations, a region leaves its arrays at what its write-backs produce and
  every other buffer as it found it. Each region is entered from the state the one before it left. At the end every
  unscoped buffer holds the last boundary's contents.
-/
import proofs.«128000_g55903294324759_cont_9to1c4b_598_2_alg».proof.Proof.K.Region0
import proofs.«128000_g55903294324759_cont_9to1c4b_598_2_alg».proof.Proof.K.Region1
import proofs.«128000_g55903294324759_cont_9to1c4b_598_2_alg».proof.Proof.K.Region2
import proofs.«128000_g55903294324759_cont_9to1c4b_598_2_alg».proof.Proof.K.Region3
set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At the last region's exit: the result array at what the pipeline leaves, every other buffer as entered (its two
    input windows read one array, which it leaves as it found it). -/
def W5 (c : Dev nD) : Valuation τ sig (Elt F) :=
  Function.update (W4 m ρ c) main_v4 ((dat3 (V4 m ρ) c).arrAt 2 cfg3.N)
abbrev V5 : (c : Dev nD) → (b : Ref sig .tc) → Buf (Elt F) ((c : Thread nD τ).loc b) := fun c b => W5 m ρ c b
theorem W5_out (c : Dev nD) : W5 m ρ c (Proc.devRef .tc main_v4) = (dat3 (V4 m ρ) c).arrAt 2 cfg3.N := by
  unfold W5; exact Function.update_self ..
theorem W5_of_ne (c : Dev nD) (b : Ref sig .tc) (hb : b ≠ main_v4) : W5 m ρ c (Proc.devRef .tc b) = W4 m ρ c (Proc.devRef .tc b) := by
  unfold W5; exact Function.update_of_ne (StableHlo.devRef_ne_of_ne hb) ..
theorem hF3 (c : Dev nD) (w : Fin cfg3.W) : (dat3 (V4 m ρ) c).arrAt w cfg3.N = V5 m ρ c (Pipeline.arrRef spec3 w) :=
  match w with
  | ⟨0, _⟩ => (((dat3 (V4 m ρ) c).arrAt_in 0 rfl _).trans (A_eq3 (V4 m ρ) c 0)).trans (W5_of_ne m ρ c main_v3 (by decide)).symm
  | ⟨1, _⟩ => (((dat3 (V4 m ρ) c).arrAt_in 1 rfl _).trans (A_eq3 (V4 m ρ) c 1)).trans (W5_of_ne m ρ c main_v3 (by decide)).symm
  | ⟨2, _⟩ => (W5_out m ρ c).symm
theorem hrest3 (c : Dev nD) : ∀ b, b ∉ Finset.univ.image (Pipeline.arrRef spec3) → V5 m ρ c b = V4 m ρ c b :=
  fun b hb => W5_of_ne m ρ c b fun e => hb (Finset.mem_image.mpr ⟨2, Finset.mem_univ _, e.symm⟩)

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W2`, left at `W3`. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W3`, left at `W4`. Its arrays are
    split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The last region: two windows on one array -/

/-- The last pipeline's arrays, window by window: the sample's array at the left half share for the row-block window and
    at the right half for the whole-array window, the result array at the full share. -/
theorem arrays3_eq (V : (c : Dev nD) → (b : Ref sig .tc) → Buf (Elt F) ((c : Thread nD τ).loc b)) (c : Dev nD)
    (G : (w : Fin cfg3.W) → Buf (Elt F) ((cfg3.win w).arr.view.loc (c : Thread nD τ))) :
    ((dat3 V c).arrays G : sProp 𝕄) = iprop((((c : Thread nD τ).loc main_v3) ↦{fullShare.left} G 0) ∗ (((c : Thread nD τ).loc main_v3) ↦{fullShare.right} G 1) ∗ (((c : Thread nD τ).loc main_v4) ↦{fullShare} G 2)) := by
  unfold Dat.arrays
  rw [bigSep_W3]
  rw [(arr_whole3 0).set_eq_univ, (arr_whole3 2).set_eq_univ]
  rfl

/-- The two distinct buffers behind the last pipeline's three windows. -/
theorem arrBufs3_eq (c : Dev nD) (X : (b : Ref sig .tc) → Buf (Elt F) ((c : Thread nD τ).loc b)) :
    (Pipeline.arrBufs spec3 c X : sProp 𝕄) = iprop((((c : Thread nD τ).loc main_v3) ↦{fullShare} X main_v3) ∗ (((c : Thread nD τ).loc main_v4) ↦{fullShare} X main_v4)) := by
  unfold Pipeline.arrBufs
  exact bigSep_eq_bigSepL_of_eq [main_v3, main_v4] (by decide) (by decide) _

/-- The whole share of the sample's array is its two halves. -/
theorem z_halves (c : Dev nD) (f : Buf (Elt F) ((c : Thread nD τ).loc main_v3)) :
    ((((c : Thread nD τ).loc main_v3) ↦{fullShare} f) : sProp 𝕄)
      ⊣⊢ iprop((((c : Thread nD τ).loc main_v3) ↦{fullShare.left} f) ∗ (((c : Thread nD τ).loc main_v3) ↦{fullShare.right} f)) :=
  pointsTo_share (PosShare.mem_left_op_right fullShare)

/-- Entry, for any contents X of the unscoped buffers and any array contents G that read X: the sample's array is split
    in its two half shares, one per input window. -/
theorem entry3_of (V : (c : Dev nD) → (b : Ref sig .tc) → Buf (Elt F) ((c : Thread nD τ).loc b)) (c : Dev nD)
    (X : (b : Ref sig .tc) → Buf (Elt F) ((c : Thread nD τ).loc b))
    (G : (w : Fin cfg3.W) → Buf (Elt F) ((cfg3.win w).arr.view.loc (c : Thread nD τ)))
    (h0 : G 0 = X main_v3) (h1 : G 1 = X main_v3) (h2 : G 2 = X main_v4) :
    (unscopedBufs c X : sProp 𝕄)
      ⊢ iprop((dat3 V c).arrays G ∗ Pipeline.unscopedRest (Ix := Unit) (Name := ℕ) (U := UR sig nD τ) (Lvl := ℕ) spec3 c X) := by
  have hs : (unscopedBufs c X : sProp 𝕄) = iprop(Pipeline.arrBufs spec3 c X ∗ Pipeline.unscopedRest spec3 c X) :=
    Pipeline.unscopedBufs_split₀ cfgs 3 winFacts₀3.arr_unscoped c X
  rw [hs, arrBufs3_eq, arrays3_eq, h0, h1, h2]
  iintro ⟨⟨Hz, Ho⟩, Hr⟩
  ihave Hz2 := (z_halves c (X main_v3)).1 $$ Hz
  icases Hz2 with ⟨HzL, HzR⟩
  isplitl [HzL HzR Ho]
  · isplitl [HzL]; · iexact HzL
    isplitl [HzR]; · iexact HzR
    iexact Ho
  iexact Hr

/-- Exit: the two halves of the sample's array, which both windows leave as they found it, are joined again. -/
theorem exit3_of (V : (c : Dev nD) → (b : Ref sig .tc) → Buf (Elt F) ((c : Thread nD τ).loc b)) (c : Dev nD)
    (X X' : (b : Ref sig .tc) → Buf (Elt F) ((c : Thread nD τ).loc b))
    (G : (w : Fin cfg3.W) → Buf (Elt F) ((cfg3.win w).arr.view.loc (c : Thread nD τ)))
    (h0 : G 0 = X' main_v3) (h1 : G 1 = X' main_v3) (h2 : G 2 = X' main_v4)
    (hrest : ∀ b, b ∉ Finset.univ.image (Pipeline.arrRef spec3) → X' b = X b) :
    iprop((dat3 V c).arrays G ∗ Pipeline.unscopedRest (Ix := Unit) (Name := ℕ) (U := UR sig nD τ) (Lvl := ℕ) spec3 c X)
      ⊢ (unscopedBufs c X' : sProp 𝕄) := by
  have hs : (unscopedBufs c X' : sProp 𝕄) = iprop(Pipeline.arrBufs spec3 c X' ∗ Pipeline.unscopedRest spec3 c X') :=
    Pipeline.unscopedBufs_split₀ cfgs 3 winFacts₀3.arr_unscoped c X'
  rw [hs, arrBufs3_eq, arrays3_eq, h0, h1, h2]
  have hr : (Pipeline.unscopedRest (Ix := Unit) (Name := ℕ) (U := UR sig nD τ) (Lvl := ℕ) spec3 c X : sProp 𝕄)
      = Pipeline.unscopedRest spec3 c X' := by
    unfold Pipeline.unscopedRest
    exact bigSep_congr fun b hb => by rw [hrest b (Finset.mem_sdiff.mp hb).2]
  rw [hr]
  iintro ⟨⟨HzL, HzR, Ho⟩, Hr⟩
  isplitl [HzL HzR Ho]
  · isplitl [HzL HzR]
    · iapply (z_halves c (X' main_v3)).2
      isplitl [HzL]; · iexact HzL
      iexact HzR
    iexact Ho
  iexact Hr

/-- Entry: the core's unscoped buffers are the last pipeline's arrays — the sample's array split in its two half
    shares, one per input window; the result array whole — and the rest. -/
theorem entry3 (c : Dev nD) :
    (unscopedBufs c (V4 m ρ c) : sProp 𝕄)
      ⊢ iprop((pdats m ρ 3 c).arrays ((pdats m ρ 3 c).arrAt · 0)
          ∗ Pipeline.unscopedRest (Ix := Unit) (Name := ℕ) (U := UR sig nD τ) (Lvl := ℕ) spec3 c (V4 m ρ c)) :=
  entry3_of (V4 m ρ) c (V4 m ρ c) _ rfl rfl rfl

/-- Exit: the arrays at their final contents — the two halves of the sample's array joined — and the rest are the
    core's unscoped buffers at the exit contents. -/
theorem exit3 (c : Dev nD) :
    iprop((pdats m ρ 3 c).arrays ((pdats m ρ 3 c).arrAt · cfg3.N)
        ∗ Pipeline.unscopedRest (Ix := Unit) (Name := ℕ) (U := UR sig nD τ) (Lvl := ℕ) spec3 c (V4 m ρ c))
      ⊢ (unscopedBufs c (V5 m ρ c) : sProp 𝕄) :=
  exit3_of (V4 m ρ) c (V4 m ρ c) (V5 m ρ c) _ (hF3 m ρ c 0) (hF3 m ρ c 1) (hF3 m ρ c 2) (hrest3 m ρ c)

set_option backward.isDefEq.respectTransparency.types false in
/-- Region 3 over the thread state: entered from every unscoped buffer at `W4`, left at `W5`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := entry3 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .region (reg3 m ρ) ]
/-- The program is the run of its segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Regions

end
-- ==== Proof.K.Keep.lean ====
/-
  No item of the program writes an argument: the host stretch writes the concatenated weights only, and each region
  changes its result array only (an input window's array is left as the region found it). So every argument array
  reaches the last boundary as launched, which is the frame claim.
-/
import proofs.«128000_g55903294324759_cont_9to1c4b_598_2_alg».proof.Proof.K.Run
set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch writes the concatenated weights only. -/
theorem keepH (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.binary_writes, Finset.mem_singleton]
    exact StableHlo.devRef_ne_of_ne hb))).trans rfl

/-- The first region changes its result array only. -/
theorem keep0 (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, hb => exact absurd rfl hb
    rw [W2_arr, (dat0 (V1 m ρ) c).arrAt_in w hin, A_eq0]
  · exact W2_of_ne m ρ c b fun w e => h ⟨w, e⟩

/-- The second region changes its result array only. -/
theorem keep1 (c : Dev nD) (b : Ref sig .tc) (hb : b ≠ main_v2) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, hb => exact absurd rfl hb
    rw [W3_arr, (dat1 (V2 m ρ) c).arrAt_in w hin, A_eq1]
  · exact W3_of_ne m ρ c b fun w e => h ⟨w, e⟩

/-- The third region changes its result array only. -/
theorem keep2 (c : Dev nD) (b : Ref sig .tc) (hb : b ≠ main_v3) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, _ => rfl
      | ⟨3, _⟩, hb => exact absurd rfl hb
    rw [W4_arr, (dat2 (V3 m ρ) c).arrAt_in w hin, A_eq2]
  · exact W4_of_ne m ρ c b fun w e => h ⟨w, e⟩

/-- A buffer that is no item's result reaches the end as launched. -/
theorem W5_arg (c : Dev nD) (b : Ref sig .tc) (h0 : b ≠ main_v0) (h1 : b ≠ main_v1) (h2 : b ≠ main_v2) (h3 : b ≠ main_v3)
    (h4 : b ≠ main_v4) : W5 m ρ c (Proc.devRef .tc b) = m ((c : Thread nD τ).loc b) :=
  (W5_of_ne m ρ c b h4).trans <| (keep2 m ρ c b h3).trans <| (keep1 m ρ c b h2).trans <| (keep0 m ρ c b h1).trans (keepH m ρ c b h0)

/-- What the run's final state says of the six arguments. -/
theorem args_kept (r : PUnit × MemSt nD τ sig (Elt F))
    (h : ∀ c : Dev nD, ∀ b ∈ Pipeline.ucRefs τ sig, r.2.mem (((c : Thread nD τ)).1, b) = W5 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c _ (mem_uc main_arg0 (by decide))).trans (W5_arg m ρ c main_arg0 (by decide) (by decide) (by decide) (by decide) (by decide)),
   (h c _ (mem_uc main_arg1 (by decide))).trans (W5_arg m ρ c main_arg1 (by decide) (by decide) (by decide) (by decide) (by decide)),
   (h c _ (mem_uc main_arg2 (by decide))).trans (W5_arg m ρ c main_arg2 (by decide) (by decide) (by decide) (by decide) (by decide)),
   (h c _ (mem_uc main_arg3 (by decide))).trans (W5_arg m ρ c main_arg3 (by decide) (by decide) (by decide) (by decide) (by decide)),
   (h c _ (mem_uc main_arg4 (by decide))).trans (W5_arg m ρ c main_arg4 (by decide) (by decide) (by decide) (by decide) (by decide)),
   (h c _ (mem_uc main_arg5 (by decide))).trans (W5_arg m ρ c main_arg5 (by decide) (by decide) (by decide) (by decide) (by decide))⟩

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m ρ r h c) (run_main m ρ)

end Cert.Kernel.Regions

end
-- ==== Proof.KI.Region0.lean ====
/-
  The first pallas_call, P = features · (W_base · W_cat), with no grid: every window is its whole array.
  For any contents V of the core's buffers when the region is entered: what the body leaves in the output buffer
  (the two products, stored whole), the body's triple, the pipeline's proof data and the body obligation.
-/
import proofs.«128000_g55903294324759_cont_9to1c4b_598_2_alg».proof.Proof.Gen.KernelIdeal.Launch
import proofs.«128000_g55903294324759_cont_9to1c4b_598_2_alg».proof.Proof.Gen.KernelIdeal.Skeleton
import proofs.«128000_g55903294324759_cont_9to1c4b_598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the one grid point, read off its array as the region finds it: the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features window's staging buffer holds the whole of features. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The W_base window's staging buffer holds the whole of W_base. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The W_cat window's staging buffer holds the whole of W_cat. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_f : Rect S10000x128 := Rect.unit (s := S10000x128) ![0, 0] S10000x128.size inb_S10000x128_S10000x128_0_0
abbrev r0_wb : Rect S128x64 := Rect.unit (s := S128x64) ![0, 0] S128x64.size inb_S128x64_S128x64_0_0
abbrev r0_wc : Rect S64x32 := Rect.unit (s := S64x32) ![0, 0] S64x32.size inb_S64x32_S64x32_0_0
abbrev r0_out : Rect S10000x32 := Rect.unit (s := S10000x32) ![0, 0] S10000x32.size inb_S10000x32_S10000x32_0_0

/-- What the body leaves in the output buffer: features times the product of W_base and W_cat. -/
def out0_3 (x0 : Vec F S10000x128 .f32) (x1 : Vec F S128x64 .f32) (x2 : Vec F S64x32 .f32) : Vec F S10000x32 .f32 :=
  View.canon [⟨r0_out, k0_pay1 (View.ld x1 r0_wb) (View.ld x2 r0_wc) (View.ld x0 r0_f)⟩]

theorem cover0_3 (p0 : Vec F S10000x32 .f32) (y : S10000x32.Idx) :
    ∃ pc ∈ ([⟨r0_out, p0⟩] : List (View.Piece (Elt F) S10000x32 .f32)), y ∈ pc.1.set :=
  View.cover_of_tiled [⟨r0_out, p0⟩] S10000x32.size (by rfl) y

set_option maxHeartbeats 1000000 in
/-- The body on whole staging memrefs: the inputs are left as they were, the output buffer ends at the product. -/
theorem sound_kernel0 (c : Dev nD) (E : Set ℕ) (arg0 : Memref sig .tc .vmem S10000x128 .f32) (harg0 : arg0.IsWhole)
    (arg1 : Memref sig .tc .vmem S128x64 .f32) (harg1 : arg1.IsWhole) (arg2 : Memref sig .tc .vmem S64x32 .f32) (harg2 : arg2.IsWhole)
    (arg3 : Memref sig .tc .vmem S10000x32 .f32) (harg3 : arg3.IsWhole)
    (x0 : Vec F S10000x128 .f32) (x1 : Vec F S128x64 .f32) (x2 : Vec F S64x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__p_body arg0 harg0 arg1 harg1 arg2 harg2 arg3 harg3) K := by
  simp only [cc0__p_body_eq_skeleton]; unfold cc0__p_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the region finds them; after the body each input's buffer at its array
    and the output's at the product; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at the grid point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at the grid point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KI.Region1.lean ====
/-
  The second pallas_call, G = adj · P, one block of 400 rows of adj per grid point against the whole of P.
  For any contents V of the core's buffers when the region is entered: the block of each window at a grid point,
  what the body leaves in the output window's buffer (the product of the adj block with P, stored whole), the
  body's triple, the pipeline's proof data and the body obligation at every point.
-/
import proofs.«128000_g55903294324759_cont_9to1c4b_598_2_alg».proof.Proof.Gen.KernelIdeal.Launch
import proofs.«128000_g55903294324759_cont_9to1c4b_598_2_alg».proof.Proof.Gen.KernelIdeal.Skeleton
import proofs.«128000_g55903294324759_cont_9to1c4b_598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adj window's staging buffer holds its block of 400 rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The P window's staging buffer holds the whole of P at every point: fetched at the first, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output buffer's one store covers it whole. -/
abbrev r1_out : Rect S400x32 := Rect.unit (s := S400x32) ![0, 0] S400x32.size inb_S400x32_S400x32_0_0
abbrev r1_a : Rect S400x10000 := Rect.unit (s := S400x10000) ![0, 0] S400x10000.size inb_S400x10000_S400x10000_0_0
abbrev r1_p : Rect S10000x32 := Rect.unit (s := S10000x32) ![0, 0] S10000x32.size inb_S10000x32_S10000x32_0_0

/-- What the body leaves in the output window's buffer: the product of the adj block and P. -/
def out1_2 (x0 : Vec F S400x10000 .f32) (x1 : Vec F S10000x32 .f32) : Vec F S400x32 .f32 :=
  View.canon [⟨r1_out, k1_pay1 (View.ld x0 r1_a) (View.ld x1 r1_p)⟩]

theorem cover1_2 (p0 : Vec F S400x32 .f32) (y : S400x32.Idx) :
    ∃ pc ∈ ([⟨r1_out, p0⟩] : List (View.Piece (Elt F) S400x32 .f32)), y ∈ pc.1.set :=
  View.cover_of_tiled [⟨r1_out, p0⟩] S400x32.size (by rfl) y

set_option maxHeartbeats 1000000 in
/-- The body on whole staging memrefs: the inputs are left as they were, the output buffer ends at the product. -/
theorem sound_kernel1 (c : Dev nD) (E : Set ℕ) (i : grid1.Coords) (arg1 : Memref sig .tc .vmem S400x10000 .f32) (harg1 : arg1.IsWhole)
    (arg2 : Memref sig .tc .vmem S10000x32 .f32) (harg2 : arg2.IsWhole) (arg3 : Memref sig .tc .vmem S400x32 .f32) (harg3 : arg3.IsWhole)
    (x0 : Vec F S400x10000 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__g_body i arg1 harg1 arg2 harg2 arg3 harg3) K := by
  simp only [cc1__g_body_eq_skeleton]; unfold cc1__g_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data: the arrays as the region finds them; after the body each input's buffer at its block
    and the output's at the product of the two; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at a grid point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KI.Region2.lean ====
/-
  The third pallas_call, Z = noise · exp(relu(adj · G)[:, 16:]) + relu(adj · G)[:, :16], one block of 400 rows per
  grid point. For any contents V of the core's buffers when the region is entered: the block of each window at a
  grid point, what the body leaves in the output window's buffer, the body's triple, the pipeline's proof data and
  the body obligation at every point.
-/
import proofs.«128000_g55903294324759_cont_9to1c4b_598_2_alg».proof.Proof.Gen.KernelIdeal.Launch
import proofs.«128000_g55903294324759_cont_9to1c4b_598_2_alg».proof.Proof.Gen.KernelIdeal.Skeleton
import proofs.«128000_g55903294324759_cont_9to1c4b_598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adj window's staging buffer holds its block of 400 rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The G window's staging buffer holds the whole of G at every point: fetched at the first, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The noise window's staging buffer holds its block of 400 rows at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S400x10000 := Rect.unit (s := S400x10000) ![0, 0] S400x10000.size inb_S400x10000_S400x10000_0_0
abbrev r2_g : Rect S10000x32 := Rect.unit (s := S10000x32) ![0, 0] S10000x32.size inb_S10000x32_S10000x32_0_0
abbrev r2_z : Rect S400x16 := Rect.unit (s := S400x16) ![0, 0] S400x16.size inb_S400x16_S400x16_0_0

/-- What the body leaves in the output window's buffer: the reparameterised sample of the block's rows. -/
def out2_3 (x0 : Vec F S400x10000 .f32) (x1 : Vec F S10000x32 .f32) (x2 : Vec F S400x16 .f32) : Vec F S400x16 .f32 :=
  View.canon [⟨r2_z, k2_pay1 (View.ld x0 r2_a) (View.ld x1 r2_g) (View.ld x2 r2_z)⟩]

theorem cover2_3 (p0 : Vec F S400x16 .f32) (y : S400x16.Idx) :
    ∃ pc ∈ ([⟨r2_z, p0⟩] : List (View.Piece (Elt F) S400x16 .f32)), y ∈ pc.1.set :=
  View.cover_of_tiled [⟨r2_z, p0⟩] S400x16.size (by rfl) y

set_option maxHeartbeats 1000000 in
/-- The body on whole staging memrefs: the inputs are left as they were, the output buffer ends at the sample. -/
theorem sound_kernel2 (c : Dev nD) (E : Set ℕ) (i : grid2.Coords) (arg1 : Memref sig .tc .vmem S400x10000 .f32) (harg1 : arg1.IsWhole)
    (arg2 : Memref sig .tc .vmem S10000x32 .f32) (harg2 : arg2.IsWhole) (arg3 : Memref sig .tc .vmem S400x16 .f32) (harg3 : arg3.IsWhole)
    (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__lambda_ i arg1 harg1 arg2 harg2 arg3 harg3 arg4 harg4) K := by
  simp only [cc2__lambda__eq_skeleton]; unfold cc2__lambda__skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input's buffer at its block
    and the output's at the sample; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a grid point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.KI.Region3.lean ====
/-
  The fourth pallas_call, out = Z · Zᵀ, one block of 400 rows of Z per grid point against the whole of Z: two input
  windows on ONE array, each holding it at half the share. For any contents V of the core's buffers when the region
  is entered: the block of each window at a grid point, what the body leaves in the output window's buffer, the
  body's triple, the pipeline's proof data and the body obligation at every point.
-/
import proofs.«128000_g55903294324759_cont_9to1c4b_598_2_alg».proof.Proof.Gen.KernelIdeal.Launch
import proofs.«128000_g55903294324759_cont_9to1c4b_598_2_alg».proof.Proof.Gen.KernelIdeal.Skeleton
import proofs.«128000_g55903294324759_cont_9to1c4b_598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds its block of 400 rows of Z at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole-Z window's staging buffer holds the whole of Z at every point: fetched at the first, its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_zi : Rect S400x16 := Rect.unit (s := S400x16) ![0, 0] S400x16.size inb_S400x16_S400x16_0_0
abbrev r3_z : Rect S10000x16 := Rect.unit (s := S10000x16) ![0, 0] S10000x16.size inb_S10000x16_S10000x16_0_0
abbrev r3_out : Rect S400x10000 := Rect.unit (s := S400x10000) ![0, 0] S400x10000.size inb_S400x10000_S400x10000_0_0

/-- What the body leaves in the output window's buffer: the block's rows of Z against every row of Z. -/
def out3_2 (x0 : Vec F S400x16 .f32) (x1 : Vec F S10000x16 .f32) : Vec F S400x10000 .f32 :=
  View.canon [⟨r3_out, k3_pay1 (View.ld x0 r3_zi) (View.ld x1 r3_z)⟩]

theorem cover3_2 (p0 : Vec F S400x10000 .f32) (y : S400x10000.Idx) :
    ∃ pc ∈ ([⟨r3_out, p0⟩] : List (View.Piece (Elt F) S400x10000 .f32)), y ∈ pc.1.set :=
  View.cover_of_tiled [⟨r3_out, p0⟩] S400x10000.size (by rfl) y

set_option maxHeartbeats 1000000 in
/-- The body on whole staging memrefs: the inputs are left as they were, the output buffer ends at the product. -/
theorem sound_kernel3 (c : Dev nD) (E : Set ℕ) (i : grid3.Coords) (arg1 : Memref sig .tc .vmem S400x16 .f32) (harg1 : arg1.IsWhole)
    (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__out_body i arg1 harg1 arg2 harg2 arg3 harg3) K := by
  simp only [cc3__out_body_eq_skeleton]; unfold cc3__out_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data: the arrays as the region finds them; after the body each input's buffer at its block
    and the output's at the product; nothing owed; the two windows on Z hold its array at the two halves of the full
    share, the output's at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at a grid point, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.KI.Run.lean ====
/-
  The run of the whole program: one stretch of host operations (the concatenation of the two small weight matrices)
  and then the four pallas_calls in order. The contents of the core's buffers at each boundary are a fold from the
  launch memory: a host stretch applies its operations, a region leaves its arrays at what its write-backs produce and
  every other buffer as it found it. Each region is entered from the state the one before it left. At the end every
  unscoped buffer holds the last boundary's contents.
-/
import proofs.«128000_g55903294324759_cont_9to1c4b_598_2_alg».proof.Proof.KI.Region0
import proofs.«128000_g55903294324759_cont_9to1c4b_598_2_alg».proof.Proof.KI.Region1
import proofs.«128000_g55903294324759_cont_9to1c4b_598_2_alg».proof.Proof.KI.Region2
import proofs.«128000_g55903294324759_cont_9to1c4b_598_2_alg».proof.Proof.KI.Region3
set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At the last region's exit: the result array at what the pipeline leaves, every other buffer as entered (its two
    input windows read one array, which it leaves as it found it). -/
def W5 (c : Dev nD) : Valuation τ sig (Elt F) :=
  Function.update (W4 m ρ c) main_v4 ((dat3 (V4 m ρ) c).arrAt 2 cfg3.N)
abbrev V5 : (c : Dev nD) → (b : Ref sig .tc) → Buf (Elt F) ((c : Thread nD τ).loc b) := fun c b => W5 m ρ c b
theorem W5_out (c : Dev nD) : W5 m ρ c (Proc.devRef .tc main_v4) = (dat3 (V4 m ρ) c).arrAt 2 cfg3.N := by
  unfold W5; exact Function.update_self ..
theorem W5_of_ne (c : Dev nD) (b : Ref sig .tc) (hb : b ≠ main_v4) : W5 m ρ c (Proc.devRef .tc b) = W4 m ρ c (Proc.devRef .tc b) := by
  unfold W5; exact Function.update_of_ne (StableHlo.devRef_ne_of_ne hb) ..
theorem hF3 (c : Dev nD) (w : Fin cfg3.W) : (dat3 (V4 m ρ) c).arrAt w cfg3.N = V5 m ρ c (Pipeline.arrRef spec3 w) :=
  match w with
  | ⟨0, _⟩ => (((dat3 (V4 m ρ) c).arrAt_in 0 rfl _).trans (A_eq3 (V4 m ρ) c 0)).trans (W5_of_ne m ρ c main_v3 (by decide)).symm
  | ⟨1, _⟩ => (((dat3 (V4 m ρ) c).arrAt_in 1 rfl _).trans (A_eq3 (V4 m ρ) c 1)).trans (W5_of_ne m ρ c main_v3 (by decide)).symm
  | ⟨2, _⟩ => (W5_out m ρ c).symm
theorem hrest3 (c : Dev nD) : ∀ b, b ∉ Finset.univ.image (Pipeline.arrRef spec3) → V5 m ρ c b = V4 m ρ c b :=
  fun b hb => W5_of_ne m ρ c b fun e => hb (Finset.mem_image.mpr ⟨2, Finset.mem_univ _, e.symm⟩)

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W2`, left at `W3`. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W3`, left at `W4`. Its arrays are
    split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The last region: two windows on one array -/

/-- The last pipeline's arrays, window by window: the sample's array at the left half share for the row-block window and
    at the right half for the whole-array window, the result array at the full share. -/
theorem arrays3_eq (V : (c : Dev nD) → (b : Ref sig .tc) → Buf (Elt F) ((c : Thread nD τ).loc b)) (c : Dev nD)
    (G : (w : Fin cfg3.W) → Buf (Elt F) ((cfg3.win w).arr.view.loc (c : Thread nD τ))) :
    ((dat3 V c).arrays G : sProp 𝕄) = iprop((((c : Thread nD τ).loc main_v3) ↦{fullShare.left} G 0) ∗ (((c : Thread nD τ).loc main_v3) ↦{fullShare.right} G 1) ∗ (((c : Thread nD τ).loc main_v4) ↦{fullShare} G 2)) := by
  unfold Dat.arrays
  rw [bigSep_W3]
  rw [(arr_whole3 0).set_eq_univ, (arr_whole3 2).set_eq_univ]
  rfl

/-- The two distinct buffers behind the last pipeline's three windows. -/
theorem arrBufs3_eq (c : Dev nD) (X : (b : Ref sig .tc) → Buf (Elt F) ((c : Thread nD τ).loc b)) :
    (Pipeline.arrBufs spec3 c X : sProp 𝕄) = iprop((((c : Thread nD τ).loc main_v3) ↦{fullShare} X main_v3) ∗ (((c : Thread nD τ).loc main_v4) ↦{fullShare} X main_v4)) := by
  unfold Pipeline.arrBufs
  exact bigSep_eq_bigSepL_of_eq [main_v3, main_v4] (by decide) (by decide) _

/-- The whole share of the sample's array is its two halves. -/
theorem z_halves (c : Dev nD) (f : Buf (Elt F) ((c : Thread nD τ).loc main_v3)) :
    ((((c : Thread nD τ).loc main_v3) ↦{fullShare} f) : sProp 𝕄)
      ⊣⊢ iprop((((c : Thread nD τ).loc main_v3) ↦{fullShare.left} f) ∗ (((c : Thread nD τ).loc main_v3) ↦{fullShare.right} f)) :=
  pointsTo_share (PosShare.mem_left_op_right fullShare)

/-- Entry, for any contents X of the unscoped buffers and any array contents G that read X: the sample's array is split
    in its two half shares, one per input window. -/
theorem entry3_of (V : (c : Dev nD) → (b : Ref sig .tc) → Buf (Elt F) ((c : Thread nD τ).loc b)) (c : Dev nD)
    (X : (b : Ref sig .tc) → Buf (Elt F) ((c : Thread nD τ).loc b))
    (G : (w : Fin cfg3.W) → Buf (Elt F) ((cfg3.win w).arr.view.loc (c : Thread nD τ)))
    (h0 : G 0 = X main_v3) (h1 : G 1 = X main_v3) (h2 : G 2 = X main_v4) :
    (unscopedBufs c X : sProp 𝕄)
      ⊢ iprop((dat3 V c).arrays G ∗ Pipeline.unscopedRest (Ix := Unit) (Name := ℕ) (U := UR sig nD τ) (Lvl := ℕ) spec3 c X) := by
  have hs : (unscopedBufs c X : sProp 𝕄) = iprop(Pipeline.arrBufs spec3 c X ∗ Pipeline.unscopedRest spec3 c X) :=
    Pipeline.unscopedBufs_split₀ cfgs 3 winFacts₀3.arr_unscoped c X
  rw [hs, arrBufs3_eq, arrays3_eq, h0, h1, h2]
  iintro ⟨⟨Hz, Ho⟩, Hr⟩
  ihave Hz2 := (z_halves c (X main_v3)).1 $$ Hz
  icases Hz2 with ⟨HzL, HzR⟩
  isplitl [HzL HzR Ho]
  · isplitl [HzL]; · iexact HzL
    isplitl [HzR]; · iexact HzR
    iexact Ho
  iexact Hr

/-- Exit: the two halves of the sample's array, which both windows leave as they found it, are joined again. -/
theorem exit3_of (V : (c : Dev nD) → (b : Ref sig .tc) → Buf (Elt F) ((c : Thread nD τ).loc b)) (c : Dev nD)
    (X X' : (b : Ref sig .tc) → Buf (Elt F) ((c : Thread nD τ).loc b))
    (G : (w : Fin cfg3.W) → Buf (Elt F) ((cfg3.win w).arr.view.loc (c : Thread nD τ)))
    (h0 : G 0 = X' main_v3) (h1 : G 1 = X' main_v3) (h2 : G 2 = X' main_v4)
    (hrest : ∀ b, b ∉ Finset.univ.image (Pipeline.arrRef spec3) → X' b = X b) :
    iprop((dat3 V c).arrays G ∗ Pipeline.unscopedRest (Ix := Unit) (Name := ℕ) (U := UR sig nD τ) (Lvl := ℕ) spec3 c X)
      ⊢ (unscopedBufs c X' : sProp 𝕄) := by
  have hs : (unscopedBufs c X' : sProp 𝕄) = iprop(Pipeline.arrBufs spec3 c X' ∗ Pipeline.unscopedRest spec3 c X') :=
    Pipeline.unscopedBufs_split₀ cfgs 3 winFacts₀3.arr_unscoped c X'
  rw [hs, arrBufs3_eq, arrays3_eq, h0, h1, h2]
  have hr : (Pipeline.unscopedRest (Ix := Unit) (Name := ℕ) (U := UR sig nD τ) (Lvl := ℕ) spec3 c X : sProp 𝕄)
      = Pipeline.unscopedRest spec3 c X' := by
    unfold Pipeline.unscopedRest
    exact bigSep_congr fun b hb => by rw [hrest b (Finset.mem_sdiff.mp hb).2]
  rw [hr]
  iintro ⟨⟨HzL, HzR, Ho⟩, Hr⟩
  isplitl [HzL HzR Ho]
  · isplitl [HzL HzR]
    · iapply (z_halves c (X' main_v3)).2
      isplitl [HzL]; · iexact HzL
      iexact HzR
    iexact Ho
  iexact Hr

/-- Entry: the core's unscoped buffers are the last pipeline's arrays — the sample's array split in its two half
    shares, one per input window; the result array whole — and the rest. -/
theorem entry3 (c : Dev nD) :
    (unscopedBufs c (V4 m ρ c) : sProp 𝕄)
      ⊢ iprop((pdats m ρ 3 c).arrays ((pdats m ρ 3 c).arrAt · 0)
          ∗ Pipeline.unscopedRest (Ix := Unit) (Name := ℕ) (U := UR sig nD τ) (Lvl := ℕ) spec3 c (V4 m ρ c)) :=
  entry3_of (V4 m ρ) c (V4 m ρ c) _ rfl rfl rfl

/-- Exit: the arrays at their final contents — the two halves of the sample's array joined — and the rest are the
    core's unscoped buffers at the exit contents. -/
theorem exit3 (c : Dev nD) :
    iprop((pdats m ρ 3 c).arrays ((pdats m ρ 3 c).arrAt · cfg3.N)
        ∗ Pipeline.unscopedRest (Ix := Unit) (Name := ℕ) (U := UR sig nD τ) (Lvl := ℕ) spec3 c (V4 m ρ c))
      ⊢ (unscopedBufs c (V5 m ρ c) : sProp 𝕄) :=
  exit3_of (V4 m ρ) c (V4 m ρ c) (V5 m ρ c) _ (hF3 m ρ c 0) (hF3 m ρ c 1) (hF3 m ρ c 2) (hrest3 m ρ c)

set_option backward.isDefEq.respectTransparency.types false in
/-- Region 3 over the thread state: entered from every unscoped buffer at `W4`, left at `W5`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := entry3 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .region (reg3 m ρ) ]
/-- The program is the run of its segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Regions

end
-- ==== Proof.KI.Keep.lean ====
/-
  No item of the program writes an argument: the host stretch writes the concatenated weights only, and each region
  changes its result array only (an input window's array is left as the region found it). So every argument array
  reaches the last boundary as launched, which is the frame claim.
-/
import proofs.«128000_g55903294324759_cont_9to1c4b_598_2_alg».proof.Proof.KI.Run
set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch writes the concatenated weights only. -/
theorem keepH (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.binary_writes, Finset.mem_singleton]
    exact StableHlo.devRef_ne_of_ne hb))).trans rfl

/-- The first region changes its result array only. -/
theorem keep0 (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, hb => exact absurd rfl hb
    rw [W2_arr, (dat0 (V1 m ρ) c).arrAt_in w hin, A_eq0]
  · exact W2_of_ne m ρ c b fun w e => h ⟨w, e⟩

/-- The second region changes its result array only. -/
theorem keep1 (c : Dev nD) (b : Ref sig .tc) (hb : b ≠ main_v2) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, hb => exact absurd rfl hb
    rw [W3_arr, (dat1 (V2 m ρ) c).arrAt_in w hin, A_eq1]
  · exact W3_of_ne m ρ c b fun w e => h ⟨w, e⟩

/-- The third region changes its result array only. -/
theorem keep2 (c : Dev nD) (b : Ref sig .tc) (hb : b ≠ main_v3) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, _ => rfl
      | ⟨3, _⟩, hb => exact absurd rfl hb
    rw [W4_arr, (dat2 (V3 m ρ) c).arrAt_in w hin, A_eq2]
  · exact W4_of_ne m ρ c b fun w e => h ⟨w, e⟩

/-- A buffer that is no item's result reaches the end as launched. -/
theorem W5_arg (c : Dev nD) (b : Ref sig .tc) (h0 : b ≠ main_v0) (h1 : b ≠ main_v1) (h2 : b ≠ main_v2) (h3 : b ≠ main_v3)
    (h4 : b ≠ main_v4) : W5 m ρ c (Proc.devRef .tc b) = m ((c : Thread nD τ).loc b) :=
  (W5_of_ne m ρ c b h4).trans <| (keep2 m ρ c b h3).trans <| (keep1 m ρ c b h2).trans <| (keep0 m ρ c b h1).trans (keepH m ρ c b h0)

/-- What the run's final state says of the six arguments. -/
theorem args_kept (r : PUnit × MemSt nD τ sig (Elt F))
    (h : ∀ c : Dev nD, ∀ b ∈ Pipeline.ucRefs τ sig, r.2.mem (((c : Thread nD τ)).1, b) = W5 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c _ (mem_uc main_arg0 (by decide))).trans (W5_arg m ρ c main_arg0 (by decide) (by decide) (by decide) (by decide) (by decide)),
   (h c _ (mem_uc main_arg1 (by decide))).trans (W5_arg m ρ c main_arg1 (by decide) (by decide) (by decide) (by decide) (by decide)),
   (h c _ (mem_uc main_arg2 (by decide))).trans (W5_arg m ρ c main_arg2 (by decide) (by decide) (by decide) (by decide) (by decide)),
   (h c _ (mem_uc main_arg3 (by decide))).trans (W5_arg m ρ c main_arg3 (by decide) (by decide) (by decide) (by decide) (by decide)),
   (h c _ (mem_uc main_arg4 (by decide))).trans (W5_arg m ρ c main_arg4 (by decide) (by decide) (by decide) (by decide) (by decide)),
   (h c _ (mem_uc main_arg5 (by decide))).trans (W5_arg m ρ c main_arg5 (by decide) (by decide) (by decide) (by decide) (by decide))⟩

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m ρ r h c) (run_main m ρ)

end Cert.KernelIdeal.Regions

end
-- ==== Proof.Spec.lean ====
/-
  The two computations as functions of matrices of extended reals, and the law that joins them.

  With A the adjacency matrix, X the features, Wb, Wm, Wl the three weight matrices and E the noise, the reference
  forms H = A (X Wb), the mean relu (A (H Wm)) and the log-deviation relu (A (H Wl)), the sample
  Z = E ⊙ exp(logstd) + mean, and Z Zᵀ. The kernel forms P = X (Wb [Wm | Wl]), G = A P, M = relu (A G), reads the mean
  off the first sixteen columns of M and the log-deviation off the last sixteen, and then the same Z and Z Zᵀ.
  The two agree because the matrix product is associative and the product with a matrix of two column blocks is the
  two products side by side — laws of real matrices, which hold here because every entry of A, X and the weights is a
  real number (finite sums of products of reals are reals, so no infinity ever meets a zero).
-/
import Idealize.ShloMosaic.PureOps.Ideal
import Idealize.ShloMosaic.Lib.ValueIdx

noncomputable section

namespace Cert.Spec

open Idealize.ShloMosaic

/-- An n × m matrix of extended reals. -/
abbrev Mat (n m : Nat) : Type := Fin n → Fin m → EReal

/-- A rank-2 array of extended reals read as a matrix, -/
def cur {n m : Nat} (x : (⟨2, ![n, m]⟩ : Shape).Idx → EReal) : Mat n m := fun i j => x (ValueIdx.ix2 i j)

/-- and a matrix as a rank-2 array. -/
def unc {n m : Nat} (A : Mat n m) : (⟨2, ![n, m]⟩ : Shape).Idx → EReal := fun j => A (j 0) (j 1)

/-- The matrix product. -/
def mm {n k m : Nat} (A : Mat n k) (B : Mat k m) : Mat n m := fun i j => ∑ x : Fin k, A i x * B x j

/-- Two 64 × 16 matrices side by side. -/
def cat (wm wl : Mat 64 16) : Mat 64 32 :=
  fun h j => if hj : j.val < 16 then wm h ⟨j.val, hj⟩ else wl h ⟨j.val - 16, by have := j.isLt; omega⟩

/-- The sample: the noise scaled by the exponential of the rectified last sixteen columns, plus the rectified first
    sixteen. -/
def sample {n : Nat} (nz : Mat n 16) (M : Mat n 32) : Mat n 16 :=
  fun i e => nz i e * Ideal.exp (max (M i ⟨e.val + 16, by have := e.isLt; omega⟩) 0) + max (M i ⟨e.val, by have := e.isLt; omega⟩) 0

/-- Z Zᵀ. -/
def gram {n : Nat} (Z : Mat n 16) : Mat n n := fun i j => ∑ e : Fin 16, Z i e * Z j e

/-- The kernel's four stages. -/
def stageP (f : Mat 10000 128) (wb : Mat 128 64) (wc : Mat 64 32) : Mat 10000 32 := mm f (mm wb wc)
def stageG (a : Mat 10000 10000) (p : Mat 10000 32) : Mat 10000 32 := mm a p
def stageZ (a : Mat 10000 10000) (g : Mat 10000 32) (nz : Mat 10000 16) : Mat 10000 16 := sample nz (mm a g)
def stageOut (z : Mat 10000 16) : Mat 10000 10000 := gram z

/-- The kernel's result as a function of its six arguments. -/
def kernelOut (a : Mat 10000 10000) (f : Mat 10000 128) (wb : Mat 128 64) (wm wl : Mat 64 16) (nz : Mat 10000 16) : Mat 10000 10000 :=
  stageOut (stageZ a (stageG a (stageP f wb (cat wm wl))) nz)

/-- The reference's sample, -/
def referenceZ (a : Mat 10000 10000) (f : Mat 10000 128) (wb : Mat 128 64) (wm wl : Mat 64 16) (nz : Mat 10000 16) : Mat 10000 16 :=
  fun i e => nz i e * Ideal.exp (max (mm a (mm (mm a (mm f wb)) wl) i e) 0) + max (mm a (mm (mm a (mm f wb)) wm) i e) 0

/-- and its result. -/
def referenceOut (a : Mat 10000 10000) (f : Mat 10000 128) (wb : Mat 128 64) (wm wl : Mat 64 16) (nz : Mat 10000 16) : Mat 10000 10000 :=
  gram (referenceZ a f wb wm wl nz)

/-- Every entry is a real number. -/
def IsReal {n m : Nat} (A : Mat n m) : Prop := ∀ i j, ∃ r : ℝ, A i j = (r : EReal)

/-! Real matrices and their reading as matrices of extended reals. -/
namespace RealMat

/-- An n × m matrix of real numbers. -/
abbrev RMat (n m : Nat) : Type := Fin n → Fin m → ℝ

/-- A real matrix read entry by entry as a matrix of extended reals. -/
def up {n m : Nat} (A : RMat n m) : Mat n m := fun i j => ((A i j : ℝ) : EReal)

/-- The product of real matrices. -/
def rmm {n k m : Nat} (A : RMat n k) (B : RMat k m) : RMat n m := fun i j => ∑ x : Fin k, A i x * B x j

/-- Two real 64 × 16 matrices side by side. -/
def rcat (wm wl : RMat 64 16) : RMat 64 32 :=
  fun h j => if hj : j.val < 16 then wm h ⟨j.val, hj⟩ else wl h ⟨j.val - 16, by have := j.isLt; omega⟩

/-- The coercion of a finite sum of reals is the sum of the coercions: a sum of finitely many reals never meets an
    infinity. -/
theorem coe_sum {ι : Type} (s : Finset ι) (g : ι → ℝ) :
    ((∑ x ∈ s, g x : ℝ) : EReal) = ∑ x ∈ s, ((g x : ℝ) : EReal) := by
  classical
  induction s using Finset.induction_on with
  | empty => simp
  | insert a s ha ih => rw [Finset.sum_insert ha, Finset.sum_insert ha, EReal.coe_add, ih]

/-- A matrix all of whose entries are real is the coercion of a real matrix. -/
theorem exists_up {n m : Nat} {A : Mat n m} (h : IsReal A) : ∃ A' : RMat n m, A = up A' := by
  choose A' hA' using h
  exact ⟨A', funext fun i => funext fun j => hA' i j⟩

/-- The product of two coerced real matrices is the coercion of the real product. -/
theorem mm_up {n k m : Nat} (A : RMat n k) (B : RMat k m) : mm (up A) (up B) = up (rmm A B) := by
  funext i j
  simp only [mm, up, rmm]
  rw [coe_sum]
  simp only [EReal.coe_mul]

/-- Two coerced real matrices side by side are the coercion of the two real matrices side by side. -/
theorem cat_up (wm wl : RMat 64 16) : cat (up wm) (up wl) = up (rcat wm wl) := by
  funext h j
  by_cases hj : j.val < 16
  · simp only [cat, up, rcat, dif_pos hj]
  · simp only [cat, up, rcat, dif_neg hj]

/-- The product of real matrices is associative. -/
theorem rmm_assoc {n k l m : Nat} (A : RMat n k) (B : RMat k l) (C : RMat l m) :
    rmm (rmm A B) C = rmm A (rmm B C) := by
  funext i j
  simp only [rmm, Finset.sum_mul, Finset.mul_sum]
  rw [Finset.sum_comm]
  simp only [mul_assoc]

/-- A product with two blocks side by side, read at one of the first sixteen columns, is the product with the left
    block. -/
theorem rmm_rcat_lo {n : Nat} (B : RMat n 64) (wm wl : RMat 64 16) (i : Fin n) (e : Fin 16) :
    rmm B (rcat wm wl) i ⟨e.val, by have := e.isLt; omega⟩ = rmm B wm i e := by
  simp only [rmm, rcat]
  refine Finset.sum_congr rfl fun x _ => ?_
  rw [dif_pos e.isLt]

/-- A product with two blocks side by side, read at one of the last sixteen columns, is the product with the right
    block. -/
theorem rmm_rcat_hi {n : Nat} (B : RMat n 64) (wm wl : RMat 64 16) (i : Fin n) (e : Fin 16) :
    rmm B (rcat wm wl) i ⟨e.val + 16, by have := e.isLt; omega⟩ = rmm B wl i e := by
  simp only [rmm, rcat]
  refine Finset.sum_congr rfl fun x _ => ?_
  have hne : ¬ e.val + 16 < 16 := by omega
  rw [dif_neg hne]
  have he : (⟨e.val + 16 - 16, by have := e.isLt; omega⟩ : Fin 16) = e := Fin.ext (by simp)
  rw [he]

end RealMat

open RealMat in
/-- On real adjacency, features and weights the kernel's result is the reference's. -/
theorem kernelOut_eq_referenceOut (a : Mat 10000 10000) (f : Mat 10000 128) (wb : Mat 128 64) (wm wl : Mat 64 16) (nz : Mat 10000 16)
    (ha : IsReal a) (hf : IsReal f) (hwb : IsReal wb) (hwm : IsReal wm) (hwl : IsReal wl) :
    kernelOut a f wb wm wl nz = referenceOut a f wb wm wl nz := by
  obtain ⟨a', rfl⟩ := exists_up ha
  obtain ⟨f', rfl⟩ := exists_up hf
  obtain ⟨wb', rfl⟩ := exists_up hwb
  obtain ⟨wm', rfl⟩ := exists_up hwm
  obtain ⟨wl', rfl⟩ := exists_up hwl
  -- H = A (X Wb), as a real matrix
  -- the kernel's A (A (X (Wb [Wm | Wl]))) is (A H) [Wm | Wl]
  have hK : mm (up a') (stageG (up a') (stageP (up f') (up wb') (cat (up wm') (up wl'))))
      = up (rmm (rmm a' (rmm a' (rmm f' wb'))) (rcat wm' wl')) := by
    unfold stageG stageP
    rw [cat_up, mm_up, mm_up, mm_up, mm_up, ← rmm_assoc f' wb' (rcat wm' wl'),
      ← rmm_assoc a' (rmm f' wb') (rcat wm' wl'), ← rmm_assoc a' (rmm a' (rmm f' wb')) (rcat wm' wl')]
  -- the reference's A (H Wm) and A (H Wl) are (A H) Wm and (A H) Wl
  have hR : ∀ w : RMat 64 16, mm (up a') (mm (mm (up a') (mm (up f') (up wb'))) (up w))
      = up (rmm (rmm a' (rmm a' (rmm f' wb'))) w) := by
    intro w
    rw [mm_up, mm_up, mm_up, mm_up, ← rmm_assoc a' (rmm a' (rmm f' wb')) w]
  unfold kernelOut stageOut stageZ referenceOut
  refine congrArg gram ?_
  funext i e
  unfold sample referenceZ
  rw [hK, hR wl', hR wm']
  simp only [up]
  rw [rmm_rcat_hi, rmm_rcat_lo]

end Cert.Spec

end
-- ==== Proof.KI.Value0.lean ====
/-
  The first pallas_call's result array after the region: P = X (Wb Wc), entry by entry, at the ideal instance —
  the one grid point writes the whole array, and each entry of the body's two matrix products is a finite sum.
-/
import proofs.«128000_g55903294324759_cont_9to1c4b_598_2_alg».proof.Proof.KI.Region0
import proofs.«128000_g55903294324759_cont_9to1c4b_598_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe
open Idealize.SL Idealize.SL.Sem
open Idealize.ShloMosaic.Pipeline (Dat Cfg Window)
open Cert.KernelIdeal Cert.KernelIdeal.Gen Cert.Spec

/-! ## The two matrix products, entry by entry -/

/-- In the product of the two weight matrices the left operand is read at the result's row … -/
theorem lhs_wprod_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
/-- … and at the summation index as its column; -/
theorem lhs_wprod_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
/-- the right operand at the summation index as its row … -/
theorem rhs_wprod_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
/-- … and at the result's column. -/
theorem rhs_wprod_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

/-- The same four facts for the product of the features with the weights' product. -/
theorem lhs_fprod_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_fprod_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_fprod_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_fprod_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- An entry of the weights' product: (Wb Wc) d q = ∑ h, Wb d h * Wc h q. -/
theorem wprod_apply (x1 : Vec Ideal S128x64 .f32) (x2 : Vec Ideal S64x32 .f32) (d : Fin 128) (q : Fin 32) :
    FloatOps.matmul (F := Ideal) (φ₁ := .f32) (φ₂ := .f32) dot_S128x64_S64x32_S128x32_1_0_0_1_n_n none x1 x2 (constant (F := Ideal) S128x32 .f32 0x00000000#32) (ValueIdx.ix2 d q)
      = ∑ h : Fin 64, x1 (ValueIdx.ix2 d h) * x2 (ValueIdx.ix2 h q) := by
  rw [Ideal.matmul_constant_zero_apply, ← Equiv.sum_comp (ValueIdx.contrEquiv1 dot_S128x64_S64x32_S128x32_1_0_0_1_n_n 64 rfl rfl).symm]
  refine Finset.sum_congr rfl fun k _ => ?_
  have hk := ValueIdx.contrEquiv1_symm_val dot_S128x64_S64x32_S128x32_1_0_0_1_n_n 64 rfl rfl k
  have el : dot_S128x64_S64x32_S128x32_1_0_0_1_n_n.lhsIdx (ValueIdx.ix2 d q) ((ValueIdx.contrEquiv1 dot_S128x64_S64x32_S128x32_1_0_0_1_n_n 64 rfl rfl).symm k) = ValueIdx.ix2 d k := funext fun a => Fin.ext (by
    match a with
    | ⟨0, _⟩ => exact lhs_wprod_0 _ _
    | ⟨1, _⟩ => exact (lhs_wprod_1 _ _).trans hk)
  have er : dot_S128x64_S64x32_S128x32_1_0_0_1_n_n.rhsIdx (ValueIdx.ix2 d q) ((ValueIdx.contrEquiv1 dot_S128x64_S64x32_S128x32_1_0_0_1_n_n 64 rfl rfl).symm k) = ValueIdx.ix2 k q := funext fun a => Fin.ext (by
    match a with
    | ⟨0, _⟩ => exact (rhs_wprod_0 _ _).trans hk
    | ⟨1, _⟩ => exact rhs_wprod_1 _ _)
  rw [el, er]

/-- An entry of the features' product with any 128 × 32 matrix: (X Y) p q = ∑ d, X p d * Y d q. -/
theorem fprod_apply (x0 : Vec Ideal S10000x128 .f32) (y : FVec Ideal S128x32 .f32) (p : Fin 10000) (q : Fin 32) :
    FloatOps.matmul (F := Ideal) (φ₁ := .f32) (φ₂ := .f32) dot_S10000x128_S128x32_S10000x32_1_0_0_1_n_n none x0 y (constant (F := Ideal) S10000x32 .f32 0x00000000#32) (ValueIdx.ix2 p q)
      = ∑ d : Fin 128, x0 (ValueIdx.ix2 p d) * y (ValueIdx.ix2 d q) := by
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ValueIdx.ix2 p q) ((ValueIdx.contrEquiv1 dot_S10000x128_S128x32_S10000x32_1_0_0_1_n_n 128 rfl rfl).symm k) = ValueIdx.ix2 p k := funext fun a => Fin.ext (by
    match a with
    | ⟨0, _⟩ => exact lhs_fprod_0 _ _
    | ⟨1, _⟩ => exact (lhs_fprod_1 _ _).trans hk)
  have er : dot_S10000x128_S128x32_S10000x32_1_0_0_1_n_n.rhsIdx (ValueIdx.ix2 p q) ((ValueIdx.contrEquiv1 dot_S10000x128_S128x32_S10000x32_1_0_0_1_n_n 128 rfl rfl).symm k) = ValueIdx.ix2 k q := funext fun a => Fin.ext (by
    match a with
    | ⟨0, _⟩ => exact (rhs_fprod_0 _ _).trans hk
    | ⟨1, _⟩ => exact rhs_fprod_1 _ _)
  rw [el, er]

/-- The body's payload, entry by entry: X (Wb Wc). -/
theorem pay0_apply (x0 : Vec Ideal S10000x128 .f32) (x1 : Vec Ideal S128x64 .f32) (x2 : Vec Ideal S64x32 .f32) (p : Fin 10000) (q : Fin 32) :
    k0_pay1 (F := Ideal) x1 x2 x0 (ValueIdx.ix2 p q)
      = ∑ d : Fin 128, x0 (ValueIdx.ix2 p d) * ∑ h : Fin 64, x1 (ValueIdx.ix2 d h) * x2 (ValueIdx.ix2 h q) := by
  unfold k0_pay1
  simp only [shapeCast_self]
  refine (fprod_apply x0 _ p q).trans ?_
  refine Finset.sum_congr rfl fun d _ => ?_
  exact congrArg (x0 (ValueIdx.ix2 p d) * ·) (wprod_apply x1 x2 d q)

/-- The body's payload is the specification's P, read as a rank-2 array. -/
theorem pay0_eq (x0 : Vec Ideal S10000x128 .f32) (x1 : Vec Ideal S128x64 .f32) (x2 : Vec Ideal S64x32 .f32) :
    k0_pay1 (F := Ideal) x1 x2 x0 = unc (stageP (cur x0) (cur x1) (cur x2)) := by
  funext j
  obtain ⟨p, q, rfl⟩ : ∃ (p : Fin 10000) (q : Fin 32), j = ValueIdx.ix2 p q := ⟨j 0, j 1, ValueIdx.eq_ix2 j⟩
  rw [pay0_apply]
  rfl

/-! ## From the one block to the array -/

/-- The zero offsets of the body's whole-buffer loads and store. -/
theorem hz0 : (![0, 0] : Fin 2 → Nat) = fun _ => 0 := funext fun a => by fin_cases a <;> rfl

/-- What the body leaves in the output buffer, of any three input blocks: P of them. -/
theorem out0_eq (x0 : Vec Ideal S10000x128 .f32) (x1 : Vec Ideal S128x64 .f32) (x2 : Vec Ideal S64x32 .f32) :
    out0_3 (F := Ideal) x0 x1 x2 = unc (stageP (cur x0) (cur x1) (cur x2)) := by
  unfold out0_3
  rw [View.canon_unit_zero hz0]
  simp only [View.ld_unit_zero (S := S10000x128) hz0, View.ld_unit_zero (S := S128x64) hz0, View.ld_unit_zero (S := S64x32) hz0]
  exact pay0_eq x0 x1 x2

variable (V : (c : Dev nD) → (b : Ref sig .tc) → Buf (Elt Ideal) ((c : Thread nD τ).loc b))

/-- The three input arrays as the region finds them. -/
abbrev feat0 (c : Dev nD) : Vec Ideal S10000x128 .f32 := V c main_arg1
abbrev wbase0 (c : Dev nD) : Vec Ideal S128x64 .f32 := V c main_arg2
abbrev wcat0 (c : Dev nD) : Vec Ideal S64x32 .f32 := V c main_v0

/-- The features window's block at the one point is the whole array: block index 0, the array's own extents. -/
theorem iblk0_feat (c : Dev nD) (t : Fin cfg0.N) : iblk0 (F := Ideal) V c 0 t = feat0 V c := by
  funext j
  show V c main_arg1 (((cfg0.win 0).blk t).view.emb j) = V c main_arg1 j
  refine congrArg (V c main_arg1) ?_
  funext a; apply Fin.ext
  match a with
  | ⟨0, _⟩ => show win0_0.index t (0 : Fin 2) * 10000 + 1 * (j 0).val = (j 0).val; have h : win0_0.index t (0 : Fin 2) = 0 := rfl; omega
  | ⟨1, _⟩ => show win0_0.index t (1 : Fin 2) * 128 + 1 * (j 1).val = (j 1).val; have h : win0_0.index t (1 : Fin 2) = 0 := rfl; omega

/-- Likewise the first weight matrix's window … -/
theorem iblk0_wbase (c : Dev nD) (t : Fin cfg0.N) : iblk0 (F := Ideal) V c 1 t = wbase0 V c := by
  funext j
  show V c main_arg2 (((cfg0.win 1).blk t).view.emb j) = V c main_arg2 j
  refine congrArg (V c main_arg2) ?_
  funext a; apply Fin.ext
  match a with
  | ⟨0, _⟩ => show win0_1.index t (0 : Fin 2) * 128 + 1 * (j 0).val = (j 0).val; have h : win0_1.index t (0 : Fin 2) = 0 := rfl; omega
  | ⟨1, _⟩ => show win0_1.index t (1 : Fin 2) * 64 + 1 * (j 1).val = (j 1).val; have h : win0_1.index t (1 : Fin 2) = 0 := rfl; omega

/-- … and the window of the two weight matrices side by side. -/
theorem iblk0_wcat (c : Dev nD) (t : Fin cfg0.N) : iblk0 (F := Ideal) V c 2 t = wcat0 V c := by
  funext j
  show V c main_v0 (((cfg0.win 2).blk t).view.emb j) = V c main_v0 j
  refine congrArg (V c main_v0) ?_
  funext a; apply Fin.ext
  match a with
  | ⟨0, _⟩ => show win0_2.index t (0 : Fin 2) * 64 + 1 * (j 0).val = (j 0).val; have h : win0_2.index t (0 : Fin 2) = 0 := rfl; omega
  | ⟨1, _⟩ => show win0_2.index t (1 : Fin 2) * 32 + 1 * (j 1).val = (j 1).val; have h : win0_2.index t (1 : Fin 2) = 0 := rfl; omega

/-- An array read through the result window's block is the array: the block is all of it. -/
theorem read_blk0_out (t : Fin cfg0.N) (G : Vec Ideal S10000x32 .f32) :
    ((cfg0.win 3).blk t).view.read (Elt Ideal) G = (cfg0.win 3).cut (cfg0.grid.coords t) G := by
  funext j
  show G (((cfg0.win 3).blk t).view.emb j) = G ((cfg0.win 3).xinj (cfg0.grid.coords t) j)
  refine congrArg G ?_
  funext a; apply Fin.ext
  match a with
  | ⟨0, _⟩ => show win0_3.index t (0 : Fin 2) * 10000 + 1 * (j 0).val = (j 0).val; have h : win0_3.index t (0 : Fin 2) = 0 := rfl; omega
  | ⟨1, _⟩ => show win0_3.index t (1 : Fin 2) * 32 + 1 * (j 1).val = (j 1).val; have h : win0_3.index t (1 : Fin 2) = 0 := rfl; omega

/-- What the one point writes back is P of the three arrays as the region finds them, read through the point's block. -/
theorem flushed0_eq (c : Dev nD) (t : Fin cfg0.N) :
    (dat0 (F := Ideal) V c).flushed 3 t
      = ((cfg0.win 3).blk t).view.read (Elt Ideal) (unc (stageP (cur (feat0 V c)) (cur (wbase0 V c)) (cur (wcat0 V c)))) := by
  show (cfg0.win 3).cut (cfg0.grid.coords t) ((dat0 V c).after 3 t) = _
  rw [after0_3, iblk0_feat V c t, iblk0_wbase V c t, iblk0_wcat V c t, out0_eq, read_blk0_out]

/-- An index of the result array is in the point's block iff each coordinate is in the block's range on its axis. -/
theorem mem_blk0_out (t : Fin cfg0.N) (i : S10000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v1).slice (win0_3.rect t)).set ↔ _
  rw [View.set_slice_whole, Rect.mem_set_unit]
  exact Iff.rfl

/-- Every index of the result array is in the one point's block. -/
theorem cover0_out (i : S10000x32.Idx) : ∃ t : Fin cfg0.N, (cfg0.win 3).flush t = true ∧ i ∈ ((cfg0.win 3).blk t).view.set := by
  refine ⟨t0_0, flush0_3 t0_0, ?_⟩
  rw [mem_blk0_out]
  have hi0 : (i 0).val < 10000 := ValueIdx.idx2_lt0 i
  have hi1 : (i 1).val < 32 := ValueIdx.idx2_lt1 i
  intro a
  match a with
  | ⟨0, _⟩ => show win0_3.index t0_0 (0 : Fin 2) * 10000 ≤ (i 0).val ∧ (i 0).val < win0_3.index t0_0 (0 : Fin 2) * 10000 + 10000; have h : win0_3.index t0_0 (0 : Fin 2) = 0 := rfl; omega
  | ⟨1, _⟩ => show win0_3.index t0_0 (1 : Fin 2) * 32 ≤ (i 1).val ∧ (i 1).val < win0_3.index t0_0 (1 : Fin 2) * 32 + 32; have h : win0_3.index t0_0 (1 : Fin 2) = 0 := rfl; omega

/-- After the region the result array holds X (Wb Wc). -/
theorem final0 (c : Dev nD) :
    (dat0 (F := Ideal) V c).arrAt 3 cfg0.N = unc (stageP (cur (feat0 V c)) (cur (wbase0 V c)) (cur (wcat0 V c))) :=
  (dat0 (F := Ideal) V c).arrAt_eq_of_cover 3 _ (fun t _ => flushed0_eq V c t) (fun i => cover0_out i)

end Cert.KernelIdeal.Regions

end
-- ==== Proof.KI.Value1.lean ====
/-
  The second pallas_call's result array after the region: G = A P, entry by entry, at the ideal instance — grid point
  t writes rows 400 t … 400 t + 399, each entry the sum over the 10000 columns of A's row against P's column.
-/
import proofs.«128000_g55903294324759_cont_9to1c4b_598_2_alg».proof.Proof.KI.Region1
import proofs.«128000_g55903294324759_cont_9to1c4b_598_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe
open Idealize.SL Idealize.SL.Sem
open Idealize.ShloMosaic.Pipeline (Dat Cfg Window)
open Cert.KernelIdeal Cert.KernelIdeal.Gen Cert.Spec

/-! ## One entry of the block product -/

/-- The left operand's row coordinate is the result's row. -/
theorem g_lhs_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
/-- The left operand's column coordinate is the summation index. -/
theorem g_lhs_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
/-- The right operand's row coordinate is the summation index. -/
theorem g_rhs_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
/-- The right operand's column coordinate is the result's column. -/
theorem g_rhs_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- Entry (p, q) of the product of a 400 × 10000 block with a 10000 × 32 matrix is the sum over k of the block's
    (p, k) entry times the matrix's (k, q) entry. -/
theorem pay1_apply (x0 : Vec Ideal S400x10000 .f32) (x1 : Vec Ideal S10000x32 .f32) (p : Fin 400) (q : Fin 32) :
    k1_pay1 (F := Ideal) x0 x1 (ValueIdx.ix2 p q) = ∑ k : Fin 10000, x0 (ValueIdx.ix2 p k) * x1 (ValueIdx.ix2 k q) := by
  unfold k1_pay1
  rw [shapeCast_self]
  simp only [matmul]
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ValueIdx.ix2 p q) ((ValueIdx.contrEquiv1 dot_S400x10000_S10000x32_S400x32_1_0_0_1_n_n 10000 rfl rfl).symm k) = ValueIdx.ix2 p k := funext fun a => Fin.ext (by
    match a with
    | ⟨0, _⟩ => exact g_lhs_0 _ _
    | ⟨1, _⟩ => exact (g_lhs_1 _ _).trans hk)
  have er : dot_S400x10000_S10000x32_S400x32_1_0_0_1_n_n.rhsIdx (ValueIdx.ix2 p q) ((ValueIdx.contrEquiv1 dot_S400x10000_S10000x32_S400x32_1_0_0_1_n_n 10000 rfl rfl).symm k) = ValueIdx.ix2 k q := funext fun a => Fin.ext (by
    match a with
    | ⟨0, _⟩ => exact (g_rhs_0 _ _).trans hk
    | ⟨1, _⟩ => exact g_rhs_1 _ _)
  rw [el, er]

/-! ## The blocks a grid point reads and writes -/

variable (V : (c : Dev nD) → (b : Ref sig .tc) → Buf (Elt Ideal) ((c : Thread nD τ).loc b))

/-- The two input arrays as the region finds them. -/
abbrev adj1 (c : Dev nD) : Vec Ideal S10000x10000 .f32 := V c main_arg0
abbrev parr1 (c : Dev nD) : Vec Ideal S10000x32 .f32 := V c main_v1

/-- The zero offsets of a whole-buffer access. -/
theorem hz1 : (![0, 0] : Fin 2 → Nat) = fun _ => 0 := funext fun a => by fin_cases a <;> rfl

/-- The index maps over the grid: the block of A and the block of the result sit at block row t, column 0; the block of
    P is the whole of P. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is its block of rows of A P. -/
theorem flushed1_eq (c : Dev nD) (t : Fin cfg1.N) :
    (dat1 (F := Ideal) V c).flushed 2 t
      = ((cfg1.win 2).blk t).view.read (Elt Ideal) (unc (stageG (cur (adj1 V c)) (cur (parr1 V c)))) := by
  show (cfg1.win 2).cut (grid1.coords t) ((dat1 (F := Ideal) V c).after 2 t) = _
  rw [after1_2]
  unfold out1_2
  rw [View.canon_unit_zero hz1]
  simp only [View.ld_unit_zero (S := S400x10000) hz1, View.ld_unit_zero (S := S10000x32) hz1]
  obtain ⟨e00, e01, e10, e11, e20, e21⟩ := idx_facts1 t
  funext j
  obtain ⟨p, q, rfl⟩ : ∃ (p : Fin 400) (q : Fin 32), j = ValueIdx.ix2 p q := ⟨j 0, j 1, ValueIdx.eq_ix2 j⟩
  show k1_pay1 (F := Ideal) (iblk1 V c 0 t) (iblk1 V c 1 t) (ValueIdx.ix2 p q)
    = unc (stageG (cur (adj1 V c)) (cur (parr1 V c))) (((cfg1.win 2).blk t).view.emb (ValueIdx.ix2 p q))
  rw [pay1_apply]
  show ∑ k : Fin 10000, adj1 V c (((cfg1.win 0).blk t).view.emb (ValueIdx.ix2 p k)) * parr1 V c (((cfg1.win 1).blk t).view.emb (ValueIdx.ix2 k q))
    = ∑ k : Fin 10000, adj1 V c (ValueIdx.ix2 (((cfg1.win 2).blk t).view.emb (ValueIdx.ix2 p q) 0) k)
        * parr1 V c (ValueIdx.ix2 k (((cfg1.win 2).blk t).view.emb (ValueIdx.ix2 p q) 1))
  refine Finset.sum_congr rfl fun k _ => ?_
  have h0 : ((cfg1.win 0).blk t).view.emb (ValueIdx.ix2 p k) = ValueIdx.ix2 (((cfg1.win 2).blk t).view.emb (ValueIdx.ix2 p q) 0) k := by
    funext a; apply Fin.ext
    match a with
    | ⟨0, _⟩ => show win1_0.index t (0 : Fin 2) * 400 + 1 * p.val = win1_2.index t (0 : Fin 2) * 400 + 1 * p.val; omega
    | ⟨1, _⟩ => show win1_0.index t (1 : Fin 2) * 10000 + 1 * k.val = k.val; omega
  have h1 : ((cfg1.win 1).blk t).view.emb (ValueIdx.ix2 k q) = ValueIdx.ix2 k (((cfg1.win 2).blk t).view.emb (ValueIdx.ix2 p q) 1) := by
    funext a; apply Fin.ext
    match a with
    | ⟨0, _⟩ => show win1_1.index t (0 : Fin 2) * 10000 + 1 * k.val = k.val; omega
    | ⟨1, _⟩ => show win1_1.index t (1 : Fin 2) * 32 + 1 * q.val = win1_2.index t (1 : Fin 2) * 32 + 1 * q.val; omega
  rw [h0, h1]
  rfl

/-! ## The blocks tile the result -/

/-- An index of the result is in point t's block iff each coordinate is in the block's range on its axis. -/
theorem mem_blk1 (t : Fin cfg1.N) (i : S10000x32.Idx) :
    i ∈ ((cfg1.win 2).blk t).view.set ↔ ∀ a : Fin 2, win1_2.index t a * S400x32.size a ≤ (i a).val ∧ (i a).val < win1_2.index t a * S400x32.size a + S400x32.size a := by
  show i ∈ ((View.whole main_v2).slice (win1_2.rect t)).set ↔ _
  rw [View.set_slice_whole, Rect.mem_set_unit]
  exact Iff.rfl

/-- Row r of the result lies in the block of grid point r / 400. -/
theorem cover1 (i : S10000x32.Idx) : ∃ t : Fin cfg1.N, (cfg1.win 2).flush t = true ∧ i ∈ ((cfg1.win 2).blk t).view.set := by
  have hi0 : (i 0).val < 10000 := (i 0).isLt
  have hi1 : (i 1).val < 32 := (i 1).isLt
  have hN : cfg1.N = 25 := N_1
  let t : Fin cfg1.N := ⟨(i 0).val / 400, by rw [hN]; omega⟩
  obtain ⟨e00, e01, e10, e11, e20, e21⟩ := idx_facts1 t
  have ht : t.val = (i 0).val / 400 := rfl
  refine ⟨t, flush1_2 t, ?_⟩
  rw [mem_blk1]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 32 ≤ (i 1).val ∧ (i 1).val < win1_2.index t (1 : Fin 2) * 32 + 32; omega

/-- After the region the result array holds A P. -/
theorem final1 (c : Dev nD) :
    (dat1 (F := Ideal) V c).arrAt 2 cfg1.N = unc (stageG (cur (adj1 V c)) (cur (parr1 V c))) :=
  (dat1 (F := Ideal) V c).arrAt_eq_of_cover 2 _ (fun t _ => flushed1_eq V c t) cover1

end Cert.KernelIdeal.Regions

end
-- ==== Proof.KI.Value2.lean ====
/-
  The third pallas_call's result array after the region: Z = E ⊙ exp(relu(A G)[:, 16:]) + relu(A G)[:, :16], entry by
  entry, at the ideal instance — grid point t writes rows 400 t … 400 t + 399.
-/
import proofs.«128000_g55903294324759_cont_9to1c4b_598_2_alg».proof.Proof.KI.Region2
import proofs.«128000_g55903294324759_cont_9to1c4b_598_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe
open Idealize.SL Idealize.SL.Sem
open Idealize.ShloMosaic.Pipeline (Dat Cfg Window)
open Cert.KernelIdeal Cert.KernelIdeal.Gen Cert.Spec

/-! ## The block's payload at an entry -/

/-- In the product of a 400 × 10000 block with a 10000 × 32 matrix the left factor's row is the result's row, -/
theorem lhs2_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
/-- its column is the summation index, -/
theorem lhs2_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
/-- the right factor's row is the summation index -/
theorem rhs2_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
/-- and its column is the result's column. -/
theorem rhs2_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The product accumulated into zero, at row p and column q, is the sum over k of x0 p k · x1 k q. -/
theorem prod2_apply (x0 : FVec Ideal S400x10000 .f32) (x1 : FVec Ideal S10000x32 .f32) (p : Fin 400) (q : Fin 32) :
    matmul dot_S400x10000_S10000x32_S400x32_1_0_0_1_n_n none x0 x1 (constant (F := Ideal) S400x32 .f32 0x00000000#32) (ValueIdx.ix2 p q)
      = ∑ k : Fin 10000, x0 (ValueIdx.ix2 p k) * x1 (ValueIdx.ix2 k q) := by
  simp only [matmul]
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ValueIdx.ix2 p q) ((ValueIdx.contrEquiv1 dot_S400x10000_S10000x32_S400x32_1_0_0_1_n_n 10000 rfl rfl).symm k) = ValueIdx.ix2 p k := funext fun a => Fin.ext (by
    match a with
    | ⟨0, _⟩ => exact lhs2_0 _ _
    | ⟨1, _⟩ => exact (lhs2_1 _ _).trans hk)
  have er : dot_S400x10000_S10000x32_S400x32_1_0_0_1_n_n.rhsIdx (ValueIdx.ix2 p q) ((ValueIdx.contrEquiv1 dot_S400x10000_S10000x32_S400x32_1_0_0_1_n_n 10000 rfl rfl).symm k) = ValueIdx.ix2 k q := funext fun a => Fin.ext (by
    match a with
    | ⟨0, _⟩ => exact (rhs2_0 _ _).trans hk
    | ⟨1, _⟩ => exact rhs2_1 _ _)
  rw [el, er]

/-- The rectified product at row p and column q. -/
theorem relu2_apply (x0 : FVec Ideal S400x10000 .f32) (x1 : FVec Ideal S10000x32 .f32) (p : Fin 400) (q : Fin 32) :
    maximumf (matmul dot_S400x10000_S10000x32_S400x32_1_0_0_1_n_n none x0 (shapeCast S10000x32 x1 shapeCasts_S10000x32_S10000x32)
        (constant (F := Ideal) S400x32 .f32 0x00000000#32)) (broadcast S400x32 (Scalar.ofBits (F := Ideal) .f32 0x00000000#32)) (ValueIdx.ix2 p q)
      = max (∑ k : Fin 10000, x0 (ValueIdx.ix2 p k) * x1 (ValueIdx.ix2 k q)) 0 := by
  rw [ValueIdx.maximumf_apply, ValueIdx.broadcast_apply, shapeCast_self, prod2_apply]
  show max _ (Ideal.ofBits .f32 0x00000000#32) = _
  rw [Ideal.ofBits_zero_f32]

/-- What the body stores at row p and column e of its block: the noise there times the exponential of the rectified
    product's column e + 16, plus the rectified product's column e. -/
theorem pay2_apply (x0 : Vec Ideal S400x10000 .f32) (x1 : Vec Ideal S10000x32 .f32) (x8 : Vec Ideal S400x16 .f32) (p : Fin 400) (e : Fin 16) :
    k2_pay1 x0 x1 x8 (ValueIdx.ix2 p e)
      = x8 (ValueIdx.ix2 p e) * Ideal.exp (max (∑ k : Fin 10000, x0 (ValueIdx.ix2 p k) * x1 (ValueIdx.ix2 k ⟨e.val + 16, by have := e.isLt; omega⟩)) 0)
        + max (∑ k : Fin 10000, x0 (ValueIdx.ix2 p k) * x1 (ValueIdx.ix2 k ⟨e.val, by have := e.isLt; omega⟩)) 0 := by
  unfold k2_pay1
  rw [ValueIdx.addf_apply, ValueIdx.mulf_apply]
  rw [show ∀ (v : FVec Ideal S400x16 .f32) (i : S400x16.Idx), exp v i = Ideal.exp (v i) from fun _ _ => rfl]
  rw [extractStridedSlice_apply ![0, 16] _ slices_S400x32_o0_16_S400x16 (ValueIdx.ix2 p e) (ValueIdx.ix2 p ⟨e.val + 16, by have := e.isLt; omega⟩)
      (fun a => match a with
        | ⟨0, _⟩ => (Nat.zero_add p.val).symm
        | ⟨1, _⟩ => Nat.add_comm e.val 16),
    extractStridedSlice_apply ![0, 0] _ slices_S400x32_o0_0_S400x16 (ValueIdx.ix2 p e) (ValueIdx.ix2 p ⟨e.val, by have := e.isLt; omega⟩)
      (fun a => match a with
        | ⟨0, _⟩ => (Nat.zero_add p.val).symm
        | ⟨1, _⟩ => (Nat.zero_add e.val).symm),
    relu2_apply, relu2_apply]

/-- So if a block x0 holds row i of A in its row p, x1 holds G, and x8 holds the noise's entry (i, e) at (p, e), the body
    stores the sample's entry (i, e) at (p, e). -/
theorem point2 (A : Vec Ideal S10000x10000 .f32) (G : Vec Ideal S10000x32 .f32) (E : Vec Ideal S10000x16 .f32)
    (x0 : Vec Ideal S400x10000 .f32) (x1 : Vec Ideal S10000x32 .f32) (x8 : Vec Ideal S400x16 .f32) (p : Fin 400) (e : Fin 16) (i : Fin 10000)
    (h0 : ∀ k : Fin 10000, x0 (ValueIdx.ix2 p k) = A (ValueIdx.ix2 i k))
    (h1 : ∀ (k : Fin 10000) (q : Fin 32), x1 (ValueIdx.ix2 k q) = G (ValueIdx.ix2 k q))
    (h8 : x8 (ValueIdx.ix2 p e) = E (ValueIdx.ix2 i e)) :
    k2_pay1 x0 x1 x8 (ValueIdx.ix2 p e) = unc (stageZ (cur A) (cur G) (cur E)) (ValueIdx.ix2 i e) := by
  rw [pay2_apply, h8]
  simp only [h0, h1]
  rfl

/-! ## From the blocks to the array -/

/-- The offset (0, 0) is the zero offset. -/
theorem hz2 : (![0, 0] : Fin 2 → Nat) = fun _ => 0 := funext fun a => by fin_cases a <;> rfl

/-- The grid has twenty-five points. -/
theorem t_lt2 (t : Fin cfg2.N) : t.val < 25 := lt_of_lt_of_eq t.isLt N_2

/-- The printed index maps, decided over the grid: at point t the blocks of A, of the noise and of the result are the
    t-th blocks of 400 rows, all columns; G's block is the whole of G. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry (p, k) of point t's block of A is entry (400 t + p, k) of A. -/
theorem emb2_0 (t : Fin cfg2.N) (p : Fin 400) (k : Fin 10000) :
    ((cfg2.win 0).blk t).view.emb (ValueIdx.ix2 p k)
      = ValueIdx.ix2 (⟨t.val * 400 + p.val, by have := t_lt2 t; have := p.isLt; omega⟩ : Fin 10000) k := by
  obtain ⟨e00, e01, e10, e11, e20, e21, e30, e31⟩ := idx_facts2 t
  funext a; apply Fin.ext
  match a with
  | ⟨0, _⟩ => show win2_0.index t (0 : Fin 2) * 400 + 1 * p.val = t.val * 400 + p.val; omega
  | ⟨1, _⟩ => show win2_0.index t (1 : Fin 2) * 10000 + 1 * k.val = k.val; omega

/-- Entry (k, q) of point t's block of G is entry (k, q) of G. -/
theorem emb2_1 (t : Fin cfg2.N) (k : Fin 10000) (q : Fin 32) :
    ((cfg2.win 1).blk t).view.emb (ValueIdx.ix2 k q) = ValueIdx.ix2 k q := by
  obtain ⟨e00, e01, e10, e11, e20, e21, e30, e31⟩ := idx_facts2 t
  funext a; apply Fin.ext
  match a with
  | ⟨0, _⟩ => show win2_1.index t (0 : Fin 2) * 10000 + 1 * k.val = k.val; omega
  | ⟨1, _⟩ => show win2_1.index t (1 : Fin 2) * 32 + 1 * q.val = q.val; omega

/-- Entry (p, e) of point t's block of the noise is entry (400 t + p, e) of the noise. -/
theorem emb2_2 (t : Fin cfg2.N) (p : Fin 400) (e : Fin 16) :
    ((cfg2.win 2).blk t).view.emb (ValueIdx.ix2 p e)
      = ValueIdx.ix2 (⟨t.val * 400 + p.val, by have := t_lt2 t; have := p.isLt; omega⟩ : Fin 10000) e := by
  obtain ⟨e00, e01, e10, e11, e20, e21, e30, e31⟩ := idx_facts2 t
  funext a; apply Fin.ext
  match a with
  | ⟨0, _⟩ => show win2_2.index t (0 : Fin 2) * 400 + 1 * p.val = t.val * 400 + p.val; omega
  | ⟨1, _⟩ => show win2_2.index t (1 : Fin 2) * 16 + 1 * e.val = e.val; omega

/-- Entry (p, e) of point t's block of the result is entry (400 t + p, e) of the result. -/
theorem emb2_3 (t : Fin cfg2.N) (p : Fin 400) (e : Fin 16) :
    ((cfg2.win 3).blk t).view.emb (ValueIdx.ix2 p e)
      = ValueIdx.ix2 (⟨t.val * 400 + p.val, by have := t_lt2 t; have := p.isLt; omega⟩ : Fin 10000) e := by
  obtain ⟨e00, e01, e10, e11, e20, e21, e30, e31⟩ := idx_facts2 t
  funext a; apply Fin.ext
  match a with
  | ⟨0, _⟩ => show win2_3.index t (0 : Fin 2) * 400 + 1 * p.val = t.val * 400 + p.val; omega
  | ⟨1, _⟩ => show win2_3.index t (1 : Fin 2) * 16 + 1 * e.val = e.val; omega

variable (V : (c : Dev nD) → (b : Ref sig .tc) → Buf (Elt Ideal) ((c : Thread nD τ).loc b))

/-- The three input arrays as the region finds them. -/
abbrev adj2 (c : Dev nD) : Vec Ideal S10000x10000 .f32 := V c main_arg0
abbrev garr2 (c : Dev nD) : Vec Ideal S10000x32 .f32 := V c main_v2
abbrev noise2 (c : Dev nD) : Vec Ideal S10000x16 .f32 := V c main_arg5

/-- What point t writes back is its block of the sample. -/
theorem flushed2_eq (c : Dev nD) (t : Fin cfg2.N) :
    (dat2 (F := Ideal) V c).flushed 3 t
      = ((cfg2.win 3).blk t).view.read (Elt Ideal) (unc (stageZ (cur (adj2 V c)) (cur (garr2 V c)) (cur (noise2 V c)))) := by
  show (cfg2.win 3).cut (grid2.coords t) ((dat2 V c).after 3 t) = _
  rw [after2_3]
  unfold out2_3
  rw [View.canon_unit_zero hz2]
  simp only [View.ld_unit_zero (S := S400x10000) hz2, View.ld_unit_zero (S := S10000x32) hz2, View.ld_unit_zero (S := S400x16) hz2]
  funext j
  obtain ⟨p, e, rfl⟩ : ∃ (p : Fin 400) (e : Fin 16), j = ValueIdx.ix2 p e := ⟨j 0, j 1, ValueIdx.eq_ix2 j⟩
  show k2_pay1 (iblk2 V c 0 t) (iblk2 V c 1 t) (iblk2 V c 2 t) (ValueIdx.ix2 p e)
    = unc (stageZ (cur (adj2 V c)) (cur (garr2 V c)) (cur (noise2 V c))) (((cfg2.win 3).blk t).view.emb (ValueIdx.ix2 p e))
  rw [emb2_3]
  exact point2 (adj2 V c) (garr2 V c) (noise2 V c) _ _ _ p e _
    (fun k => congrArg (adj2 V c) (emb2_0 t p k)) (fun k q => congrArg (garr2 V c) (emb2_1 t k q)) (congrArg (noise2 V c) (emb2_2 t p e))

/-- An entry of the result array is in point t's block iff each coordinate is in the block's range on its axis. -/
theorem mem_blk2 (t : Fin cfg2.N) (i : S10000x16.Idx) :
    i ∈ ((cfg2.win 3).blk t).view.set
      ↔ ∀ a : Fin 2, win2_3.index t a * S400x16.size a ≤ (i a).val ∧ (i a).val < win2_3.index t a * S400x16.size a + S400x16.size a := by
  show i ∈ ((View.whole main_v3).slice (win2_3.rect t)).set ↔ _
  rw [View.set_slice_whole, Rect.mem_set_unit]
  exact Iff.rfl

/-- Row r of the result is in the block of point r / 400: the blocks cover the array. -/
theorem cover2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  have hN : cfg2.N = 25 := N_2
  refine ⟨⟨(i 0).val / 400, by rw [hN]; omega⟩, flush2_3 _, ?_⟩
  rw [mem_blk2]
  obtain ⟨e00, e01, e10, e11, e20, e21, e30, e31⟩ := idx_facts2 ⟨(i 0).val / 400, by rw [hN]; omega⟩
  intro a
  match a with
  | ⟨0, _⟩ =>
    show win2_3.index ⟨(i 0).val / 400, _⟩ (0 : Fin 2) * 400 ≤ (i 0).val ∧ (i 0).val < win2_3.index ⟨(i 0).val / 400, _⟩ (0 : Fin 2) * 400 + 400
    rw [e30]; show (i 0).val / 400 * 400 ≤ (i 0).val ∧ (i 0).val < (i 0).val / 400 * 400 + 400; omega
  | ⟨1, _⟩ =>
    show win2_3.index ⟨(i 0).val / 400, _⟩ (1 : Fin 2) * 16 ≤ (i 1).val ∧ (i 1).val < win2_3.index ⟨(i 0).val / 400, _⟩ (1 : Fin 2) * 16 + 16
    rw [e31]; omega

/-- After the region the result array holds the sample. -/
theorem final2 (c : Dev nD) :
    (dat2 (F := Ideal) V c).arrAt 3 cfg2.N = unc (stageZ (cur (adj2 V c)) (cur (garr2 V c)) (cur (noise2 V c))) :=
  (dat2 (F := Ideal) V c).arrAt_eq_of_cover 3 _ (fun t _ => flushed2_eq V c t) cover2

end Cert.KernelIdeal.Regions

end
-- ==== Proof.KI.Value3.lean ====
/-
  The fourth pallas_call's result array after the region: Z Zᵀ, entry by entry, at the ideal instance — grid point t
  writes rows 400 t … 400 t + 399, each entry the sum over the sixteen columns of Z's two rows.
-/
import proofs.«128000_g55903294324759_cont_9to1c4b_598_2_alg».proof.Proof.KI.Region3
import proofs.«128000_g55903294324759_cont_9to1c4b_598_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The input array as the region finds it (both input windows read it). -/
abbrev zarr3 (c : Dev nD) : Vec Ideal S10000x16 .f32 := V c main_v3

/-- The product's left operand is read at the result's row: axis 0 of the left index is the result's axis 0. -/
theorem lhs3_0 (i : S400x10000.Idx) (q : dot_S400x16_S10000x16_S400x10000_1_1_0_0_n_n.contr.Idx) :
    (dot_S400x16_S10000x16_S400x10000_1_1_0_0_n_n.lhsIdx i q 0).val = (i 0).val := by
  unfold DotDims.lhsIdx
  rw [dif_neg (show ¬(0 : Fin S400x16.rank) ∈ dot_S400x16_S10000x16_S400x10000_1_1_0_0_n_n.lhsBatch by decide), dif_pos (show (0 : Fin S400x16.rank) ∈ dot_S400x16_S10000x16_S400x10000_1_1_0_0_n_n.lhsNonContracting by decide)]
  rfl
/-- Axis 1 of the left index is the contraction's coordinate. -/
theorem lhs3_1 (i : S400x10000.Idx) (q : dot_S400x16_S10000x16_S400x10000_1_1_0_0_n_n.contr.Idx) :
    (dot_S400x16_S10000x16_S400x10000_1_1_0_0_n_n.lhsIdx i q 1).val = (q ⟨0, by decide⟩).val :=
  dot_S400x16_S10000x16_S400x10000_1_1_0_0_n_n.lhsIdx_val_of_single rfl i q
/-- The right operand is read at the result's COLUMN as its row: axis 0 of the right index is the result's axis 1. -/
theorem rhs3_0 (i : S400x10000.Idx) (q : dot_S400x16_S10000x16_S400x10000_1_1_0_0_n_n.contr.Idx) :
    (dot_S400x16_S10000x16_S400x10000_1_1_0_0_n_n.rhsIdx i q 0).val = (i 1).val := by
  unfold DotDims.rhsIdx
  rw [dif_neg (show ¬(0 : Fin S10000x16.rank) ∈ dot_S400x16_S10000x16_S400x10000_1_1_0_0_n_n.rhsBatch by decide), dif_pos (show (0 : Fin S10000x16.rank) ∈ dot_S400x16_S10000x16_S400x10000_1_1_0_0_n_n.rhsNonContracting by decide)]
  rfl
/-- Axis 1 of the right index is the contraction's coordinate too: both operands are contracted on their columns. -/
theorem rhs3_1 (i : S400x10000.Idx) (q : dot_S400x16_S10000x16_S400x10000_1_1_0_0_n_n.contr.Idx) :
    (dot_S400x16_S10000x16_S400x10000_1_1_0_0_n_n.rhsIdx i q 1).val = (q ⟨0, by decide⟩).val :=
  dot_S400x16_S10000x16_S400x10000_1_1_0_0_n_n.rhsIdx_val_of_single rfl i q

/-- The body's payload at an index: entry (p, j) of the product is the sum over the sixteen columns of row p of the
    left block times row j of the right one. -/
theorem pay3_apply (x0 : Vec Ideal S400x16 .f32) (x2 : Vec Ideal S10000x16 .f32) (p : Fin 400) (j : Fin 10000) :
    k3_pay1 x0 x2 (ValueIdx.ix2 p j) = ∑ e : Fin 16, x0 (ValueIdx.ix2 p e) * x2 (ValueIdx.ix2 j e) := by
  unfold k3_pay1
  simp only [shapeCast_self, matmul]
  rw [Ideal.matmul_constant_zero_apply, ← Equiv.sum_comp (ValueIdx.contrEquiv1 dot_S400x16_S10000x16_S400x10000_1_1_0_0_n_n 16 rfl rfl).symm]
  refine Finset.sum_congr rfl fun k _ => ?_
  have hk := ValueIdx.contrEquiv1_symm_val dot_S400x16_S10000x16_S400x10000_1_1_0_0_n_n 16 rfl rfl k
  have el : dot_S400x16_S10000x16_S400x10000_1_1_0_0_n_n.lhsIdx (ValueIdx.ix2 p j) ((ValueIdx.contrEquiv1 dot_S400x16_S10000x16_S400x10000_1_1_0_0_n_n 16 rfl rfl).symm k) = ValueIdx.ix2 p k := funext fun a => Fin.ext (by
    match a with
    | ⟨0, _⟩ => exact lhs3_0 _ _
    | ⟨1, _⟩ => exact (lhs3_1 _ _).trans hk)
  have er : dot_S400x16_S10000x16_S400x10000_1_1_0_0_n_n.rhsIdx (ValueIdx.ix2 p j) ((ValueIdx.contrEquiv1 dot_S400x16_S10000x16_S400x10000_1_1_0_0_n_n 16 rfl rfl).symm k) = ValueIdx.ix2 j k := funext fun a => Fin.ext (by
    match a with
    | ⟨0, _⟩ => exact rhs3_0 _ _
    | ⟨1, _⟩ => exact (rhs3_1 _ _).trans hk)
  rw [el, er]

/-- The zero offsets of a whole-block load or store, as the constant function. -/
theorem hz3 : (![0, 0] : Fin 2 → Nat) = fun _ => 0 := funext fun a => by fin_cases a <;> rfl

/-- The three windows' block indices at every grid point: point t's row block of Z and of the result is block t, the
    whole-Z window stays at block 0, and no window moves along the columns. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of what a grid point leaves: when row p of the left block is row r of Z and the right block is Z,
    entry (p, j) of the body's product is entry (r, j) of Z Zᵀ. -/
theorem point3 (z : Vec Ideal S10000x16 .f32) (x0 : Vec Ideal S400x16 .f32) (x2 : Vec Ideal S10000x16 .f32)
    (p : Fin 400) (j r : Fin 10000)
    (h0 : ∀ e : Fin 16, x0 (ValueIdx.ix2 p e) = z (ValueIdx.ix2 r e))
    (h2 : ∀ e : Fin 16, x2 (ValueIdx.ix2 j e) = z (ValueIdx.ix2 j e)) :
    k3_pay1 x0 x2 (ValueIdx.ix2 p j) = unc (stageOut (cur z)) (ValueIdx.ix2 r j) := by
  rw [pay3_apply]
  show _ = ∑ e : Fin 16, z (ValueIdx.ix2 r e) * z (ValueIdx.ix2 j e)
  exact Finset.sum_congr rfl fun e _ => by rw [h0 e, h2 e]

/-- What grid point t writes back is block t of Z Zᵀ: rows 400 t … 400 t + 399, every column. -/
theorem flushed3_eq (c : Dev nD) (t : Fin cfg3.N) :
    (dat3 (F := Ideal) V c).flushed 2 t = ((cfg3.win 2).blk t).view.read (Elt Ideal) (unc (stageOut (cur (zarr3 V c)))) := by
  show (cfg3.win 2).cut (grid3.coords t) ((dat3 V c).after 2 t) = _
  rw [after3_2]
  unfold out3_2
  rw [View.canon_unit_zero hz3]
  simp only [View.ld_unit_zero (S := S400x16) hz3, View.ld_unit_zero (S := S10000x16) hz3]
  obtain ⟨e0, e1, e2, e3, e4, e5⟩ := idx_facts3 t
  have ht : t.val < 25 := Nat.lt_of_lt_of_eq t.isLt N_3
  funext y
  obtain ⟨p, j, rfl⟩ : ∃ (p : Fin 400) (j : Fin 10000), y = ValueIdx.ix2 p j := ⟨y 0, y 1, ValueIdx.eq_ix2 y⟩
  have hp : p.val < 400 := p.isLt
  have hemb : ((cfg3.win 2).blk t).view.emb (ValueIdx.ix2 p j) = ValueIdx.ix2 (⟨400 * t.val + p.val, by omega⟩ : Fin 10000) j := by
    funext a; apply Fin.ext
    match a with
    | ⟨0, _⟩ => show win3_2.index t (0 : Fin 2) * 400 + 1 * p.val = 400 * t.val + p.val; omega
    | ⟨1, _⟩ => show win3_2.index t (1 : Fin 2) * 10000 + 1 * j.val = j.val; omega
  show k3_pay1 (iblk3 V c 0 t) (iblk3 V c 1 t) (ValueIdx.ix2 p j) = unc (stageOut (cur (zarr3 V c))) (((cfg3.win 2).blk t).view.emb (ValueIdx.ix2 p j))
  rw [hemb]
  refine point3 (zarr3 V c) _ _ p j _ (fun e => ?_) (fun e => ?_)
  · have h : ((cfg3.win 0).blk t).view.emb (ValueIdx.ix2 p e) = ValueIdx.ix2 (⟨400 * t.val + p.val, by omega⟩ : Fin 10000) e := by
      funext a; apply Fin.ext
      match a with
      | ⟨0, _⟩ => show win3_0.index t (0 : Fin 2) * 400 + 1 * p.val = 400 * t.val + p.val; omega
      | ⟨1, _⟩ => show win3_0.index t (1 : Fin 2) * 16 + 1 * e.val = e.val; omega
    show V c main_v3 (((cfg3.win 0).blk t).view.emb (ValueIdx.ix2 p e)) = V c main_v3 (ValueIdx.ix2 (⟨400 * t.val + p.val, by omega⟩ : Fin 10000) e)
    rw [h]
  · have h : ((cfg3.win 1).blk t).view.emb (ValueIdx.ix2 j e) = ValueIdx.ix2 j e := by
      funext a; apply Fin.ext
      match a with
      | ⟨0, _⟩ => show win3_1.index t (0 : Fin 2) * 10000 + 1 * j.val = j.val; omega
      | ⟨1, _⟩ => show win3_1.index t (1 : Fin 2) * 16 + 1 * e.val = e.val; omega
    show V c main_v3 (((cfg3.win 1).blk t).view.emb (ValueIdx.ix2 j e)) = V c main_v3 (ValueIdx.ix2 j e)
    rw [h]

/-- An index of the result array is in point t's block iff each coordinate is in the block's range on its axis. -/
theorem mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v4).slice (win3_2.rect t)).set ↔ _
  rw [View.set_slice_whole, Rect.mem_set_unit]
  exact Iff.rfl

/-- The row blocks tile the result array: row r, whatever the column, is in the block of point r / 400. -/
theorem cover3 (i : S10000x10000.Idx) :
    ∃ t : Fin cfg3.N, (cfg3.win 2).flush t = true ∧ i ∈ ((cfg3.win 2).blk t).view.set := by
  have hi0 : (i 0).val < 10000 := (i 0).isLt
  have hi1 : (i 1).val < 10000 := (i 1).isLt
  obtain ⟨t, htv⟩ : ∃ t : Fin cfg3.N, t.val = (i 0).val / 400 :=
    ⟨⟨(i 0).val / 400, Nat.lt_of_lt_of_eq (by omega : (i 0).val / 400 < 25) N_3.symm⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 10000 ≤ (i 1).val ∧ (i 1).val < win3_2.index t (1 : Fin 2) * 10000 + 10000; omega

/-- After the region the result array holds Z Zᵀ. -/
theorem final3 (c : Dev nD) :
    (dat3 (F := Ideal) V c).arrAt 2 cfg3.N = unc (stageOut (cur (zarr3 V c))) :=
  (dat3 V c).arrAt_eq_of_cover 2 _ (fun t _ => flushed3_eq V c t) cover3

end Cert.KernelIdeal.Regions

end
-- ==== Proof.KI.Final.lean ====
/-
  The program's result as a function of its six arguments, at the ideal instance. Following the boundary contents
  back from the end: the result array is Z Zᵀ of the sample's array as the last region finds it; that array is what the
  third region wrote from the adjacency matrix, the noise and G; G is what the second region wrote from the adjacency
  matrix and P; P is what the first region wrote from the features, W_base and the concatenated weights, which the host
  stretch wrote from W_mean and W_logstd. No region and no host operation writes an argument, so every region finds the
  arguments as launched.
-/
import proofs.«128000_g55903294324759_cont_9to1c4b_598_2_alg».proof.Proof.KI.Keep
import proofs.«128000_g55903294324759_cont_9to1c4b_598_2_alg».proof.Proof.KI.Value0
import proofs.«128000_g55903294324759_cont_9to1c4b_598_2_alg».proof.Proof.KI.Value1
import proofs.«128000_g55903294324759_cont_9to1c4b_598_2_alg».proof.Proof.KI.Value2
import proofs.«128000_g55903294324759_cont_9to1c4b_598_2_alg».proof.Proof.KI.Value3
import proofs.«128000_g55903294324759_cont_9to1c4b_598_2_alg».proof.Proof.Spec
import Idealize.ShloMosaic.Lib.StableHlo.Run
import Idealize.ShloMosaic.Lib.Pipeline.Value

set_option maxRecDepth 16384

noncomputable section

namespace Cert.KernelIdeal.Regions

open Idealize.ShloMosaic Idealize.ShloMosaic.TcCoe
open Idealize.SL Idealize.SL.Sem
open Idealize.ShloMosaic.Pipeline (Dat Cfg Window)
open Idealize.ShloMosaic.StableHlo
open Cert.KernelIdeal Cert.KernelIdeal.Gen Cert.Spec

/-! ## The result, at the ideal instance -/

variable (m : (ℓ : Loc nD τ sig) → Buf (Elt Ideal) ℓ) (ρ : Dev nD → PrngReg)

/-- A matrix read as an array and back. -/
theorem cur_unc {n k : Nat} (A : Mat n k) : cur (unc A) = A := rfl

/-- The host stretch writes the concatenation of the two small weight matrices along the columns. -/
theorem W1_v0 (c : Dev nD) :
    W1 m ρ c (Proc.devRef .tc main_v0)
      = concatenate S64x32 1 [⟨S64x16, m ((c : Thread nD τ).loc main_arg3)⟩, ⟨S64x16, m ((c : Thread nD τ).loc main_arg4)⟩] concatenates_S64x16_S64x16_S64x32_d1 := by
  show StableHlo.after hostOps0 _ (Proc.devRef .tc main_v0) = _
  after_results

/-- Read as matrices: the two side by side. -/
theorem W1_wcat (c : Dev nD) :
    cur (n := 64) (m := 32) (W1 m ρ c (Proc.devRef .tc main_v0))
      = cat (cur (n := 64) (m := 16) (m ((c : Thread nD τ).loc main_arg3))) (cur (n := 64) (m := 16) (m ((c : Thread nD τ).loc main_arg4))) := by
  rw [W1_v0]
  funext h j
  unfold cur cat
  by_cases hj : j.val < 16
  · rw [dif_pos hj]
    exact concatenate_pair_apply_left (t := S64x32) (s₁ := S64x16) (s₂ := S64x16) (1 : Fin 2) _ _ concatenates_S64x16_S64x16_S64x32_d1
      (ValueIdx.ix2 (n0 := 64) (n1 := 32) h j) rfl (ValueIdx.ix2 (n0 := 64) (n1 := 16) h ⟨j.val, hj⟩) (fun b => by match b with | ⟨0, _⟩ => rfl | ⟨1, _⟩ => rfl)
  · rw [dif_neg hj]
    exact concatenate_pair_apply_right (t := S64x32) (s₁ := S64x16) (s₂ := S64x16) (1 : Fin 2) _ _ concatenates_S64x16_S64x16_S64x32_d1
      (ValueIdx.ix2 (n0 := 64) (n1 := 32) h j) rfl rfl (ValueIdx.ix2 (n0 := 64) (n1 := 16) h ⟨j.val - 16, by have := j.isLt; omega⟩)
      (fun b hb => by match b, hb with | ⟨0, _⟩, _ => rfl | ⟨1, _⟩, hb => exact absurd rfl hb)
      (by show (j.val - 16) + 16 = j.val; omega)

/-- THE RESULT: the last boundary holds, in the result array, the kernel's function of the six arguments. -/
theorem result_eq (c : Dev nD) :
    W5 m ρ c (Proc.devRef .tc main_v4)
      = unc (kernelOut (cur (n := 10000) (m := 10000) (m ((c : Thread nD τ).loc main_arg0)))
          (cur (n := 10000) (m := 128) (m ((c : Thread nD τ).loc main_arg1)))
          (cur (n := 128) (m := 64) (m ((c : Thread nD τ).loc main_arg2)))
          (cur (n := 64) (m := 16) (m ((c : Thread nD τ).loc main_arg3)))
          (cur (n := 64) (m := 16) (m ((c : Thread nD τ).loc main_arg4)))
          (cur (n := 10000) (m := 16) (m ((c : Thread nD τ).loc main_arg5)))) := by
  -- the sample's array as the last region finds it
  have hz : V4 m ρ c main_v3 = unc (stageZ (cur (adj2 (V3 m ρ) c)) (cur (garr2 (V3 m ρ) c)) (cur (noise2 (V3 m ρ) c))) :=
    (W4_arr m ρ c 3).trans (final2 (V3 m ρ) c)
  have hg : V3 m ρ c main_v2 = unc (stageG (cur (adj1 (V2 m ρ) c)) (cur (parr1 (V2 m ρ) c))) :=
    (W3_arr m ρ c 2).trans (final1 (V2 m ρ) c)
  have hp : V2 m ρ c main_v1 = unc (stageP (cur (feat0 (V1 m ρ) c)) (cur (wbase0 (V1 m ρ) c)) (cur (wcat0 (V1 m ρ) c))) :=
    (W2_arr m ρ c 3).trans (final0 (V1 m ρ) c)
  -- the arguments as each region finds them
  have a3 : V3 m ρ c main_arg0 = m ((c : Thread nD τ).loc main_arg0) :=
    (keep1 m ρ c main_arg0 (by decide)).trans <| (keep0 m ρ c main_arg0 (by decide)).trans (keepH m ρ c main_arg0 (by decide))
  have a2 : V2 m ρ c main_arg0 = m ((c : Thread nD τ).loc main_arg0) :=
    (keep0 m ρ c main_arg0 (by decide)).trans (keepH m ρ c main_arg0 (by decide))
  have n3 : V3 m ρ c main_arg5 = m ((c : Thread nD τ).loc main_arg5) :=
    (keep1 m ρ c main_arg5 (by decide)).trans <| (keep0 m ρ c main_arg5 (by decide)).trans (keepH m ρ c main_arg5 (by decide))
  have f1 : V1 m ρ c main_arg1 = m ((c : Thread nD τ).loc main_arg1) := keepH m ρ c main_arg1 (by decide)
  have w1 : V1 m ρ c main_arg2 = m ((c : Thread nD τ).loc main_arg2) := keepH m ρ c main_arg2 (by decide)
  rw [W5_out, final3 (V4 m ρ) c]
  unfold kernelOut
  refine congrArg (fun z => unc (stageOut z)) ?_
  show cur (V4 m ρ c main_v3) = _
  rw [hz, cur_unc]
  show stageZ (cur (V3 m ρ c main_arg0)) (cur (V3 m ρ c main_v2)) (cur (V3 m ρ c main_arg5)) = _
  rw [a3, n3, hg, cur_unc]
  show stageZ _ (stageG (cur (V2 m ρ c main_arg0)) (cur (V2 m ρ c main_v1))) _ = _
  rw [a2, hp, cur_unc]
  show stageZ _ (stageG _ (stageP (cur (V1 m ρ c main_arg1)) (cur (V1 m ρ c main_arg2)) (cur (V1 m ρ c main_v0)))) _ = _
  rw [f1, w1]
  show stageZ _ (stageG _ (stageP _ _ (cur (n := 64) (m := 32) (W1 m ρ c (Proc.devRef .tc main_v0))))) _ = _
  rw [W1_wcat]

/-- THE VALUE RUN: every weakly fair execution terminates with the result array at the kernel's function of the six
    arguments and the arguments as launched. -/
theorem value_run : θ_run defs (onTc (τ := τ) (main (F := Ideal))) ⟨m, fun _ => 0, ρ⟩ (fun r => ∀ c : Dev nD,
      r.2.mem ((c.tc : Thread nD τ).loc main_v4)
        = unc (kernelOut (cur (n := 10000) (m := 10000) (m ((c : Thread nD τ).loc main_arg0)))
            (cur (n := 10000) (m := 128) (m ((c : Thread nD τ).loc main_arg1)))
            (cur (n := 128) (m := 64) (m ((c : Thread nD τ).loc main_arg2)))
            (cur (n := 64) (m := 16) (m ((c : Thread nD τ).loc main_arg3)))
            (cur (n := 64) (m := 16) (m ((c : Thread nD τ).loc main_arg4)))
            (cur (n := 10000) (m := 16) (m ((c : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v4 (by decide))).trans (result_eq m ρ c), args_kept m ρ r h c⟩) (run_main m ρ)

end Cert.KernelIdeal.Regions

end
-- ==== Proof.RefRead.lean ====
/-
  The reference program's run and its operations read at an index (the generated run and read modules), gathered
  under one import for the modules that compare the reference with the kernel.
-/
import proofs.«128000_g55903294324759_cont_9to1c4b_598_2_alg».proof.Proof.Gen.ReferenceIdeal.Run
import proofs.«128000_g55903294324759_cont_9to1c4b_598_2_alg».proof.Proof.Gen.ReferenceIdeal.Read
-- ==== Proof.RefBridge.lean ====
/-
  The reference's result, read one operation at a time, is the specification's reference function of the six argument
  arrays: three pairs of matrix products, two rectifications, the exponential, the scaling of the noise, and the last
  product against the transpose, each read at an index.
-/
import proofs.«128000_g55903294324759_cont_9to1c4b_598_2_alg».proof.Proof.RefRead
import proofs.«128000_g55903294324759_cont_9to1c4b_598_2_alg».proof.Proof.Spec

noncomputable section

namespace Cert.ReferenceIdeal.RefValue

open Cert.ReferenceIdeal Cert.ReferenceIdeal.Gen Cert.ReferenceIdeal.Read Idealize.ShloMosaic Cert.Spec

/-- A matrix written as a rank-2 array and read back as a matrix is the matrix itself. -/
theorem cur_unc {n m : Nat} (A : Mat n m) : cur (unc A) = A := rfl

/-- A sum over a shared middle coordinate q of products, the left array read at (a, q) and the right array at (q, b),
    is the entry (a, b) of the product of the two arrays read as matrices. -/
theorem dot_read {n k m : Nat} (l : (⟨2, ![n, k]⟩ : Shape).Idx → EReal) (r : (⟨2, ![k, m]⟩ : Shape).Idx → EReal)
    (li : Fin k → (⟨2, ![n, k]⟩ : Shape).Idx) (ri : Fin k → (⟨2, ![k, m]⟩ : Shape).Idx) (a : Fin n) (b : Fin m)
    (hl : ∀ q, li q = ValueIdx.ix2 a q) (hr : ∀ q, ri q = ValueIdx.ix2 q b) :
    ∑ q : Fin k, l (li q) * r (ri q) = mm (cur l) (cur r) a b := by
  unfold mm cur
  exact Finset.sum_congr rfl fun q _ => by rw [hl q, hr q]

/-- X Wb: the features times the base weights. -/
theorem v0_eq (x1 : Vec Ideal S10000x128 .f32) (x2 : Vec Ideal S128x64 .f32) :
    val_main_v0 (F := Ideal) x1 x2 = unc (mm (cur x1) (cur x2)) := by
  funext i
  obtain ⟨a, b, rfl⟩ : ∃ a b, i = ValueIdx.ix2 a b := ⟨i 0, i 1, ValueIdx.eq_ix2 i⟩
  rw [val_main_v0_apply]
  exact dot_read x1 x2 (lidx_main_v0 (ValueIdx.ix2 a b)) (ridx_main_v0 (ValueIdx.ix2 a b)) a b
    (fun q => funext fun c => Fin.ext (by match c with | ⟨0, _⟩ => rfl | ⟨1, _⟩ => rfl))
    (fun q => funext fun c => Fin.ext (by match c with | ⟨0, _⟩ => rfl | ⟨1, _⟩ => rfl))

/-- H = A (X Wb): the hidden layer. -/
theorem v1_eq (x0 : Vec Ideal S10000x10000 .f32) (x1 : Vec Ideal S10000x128 .f32) (x2 : Vec Ideal S128x64 .f32) :
    val_main_v1 (F := Ideal) x0 x1 x2 = unc (mm (cur x0) (mm (cur x1) (cur x2))) := by
  funext i
  obtain ⟨a, b, rfl⟩ : ∃ a b, i = ValueIdx.ix2 a b := ⟨i 0, i 1, ValueIdx.eq_ix2 i⟩
  rw [val_main_v1_apply, v0_eq]
  exact dot_read x0 (unc (mm (cur x1) (cur x2))) (lidx_main_v1 (ValueIdx.ix2 a b)) (ridx_main_v1 (ValueIdx.ix2 a b)) a b
    (fun q => funext fun c => Fin.ext (by match c with | ⟨0, _⟩ => rfl | ⟨1, _⟩ => rfl))
    (fun q => funext fun c => Fin.ext (by match c with | ⟨0, _⟩ => rfl | ⟨1, _⟩ => rfl))

/-- H Wm: the hidden layer times the mean weights. -/
theorem v2_eq (x0 : Vec Ideal S10000x10000 .f32) (x1 : Vec Ideal S10000x128 .f32) (x2 : Vec Ideal S128x64 .f32)
    (x3 : Vec Ideal S64x16 .f32) :
    val_main_v2 (F := Ideal) x0 x1 x2 x3 = unc (mm (mm (cur x0) (mm (cur x1) (cur x2))) (cur x3)) := by
  funext i
  obtain ⟨a, b, rfl⟩ : ∃ a b, i = ValueIdx.ix2 a b := ⟨i 0, i 1, ValueIdx.eq_ix2 i⟩
  rw [val_main_v2_apply, v1_eq]
  exact dot_read (unc (mm (cur x0) (mm (cur x1) (cur x2)))) x3 (lidx_main_v2 (ValueIdx.ix2 a b)) (ridx_main_v2 (ValueIdx.ix2 a b)) a b
    (fun q => funext fun c => Fin.ext (by match c with | ⟨0, _⟩ => rfl | ⟨1, _⟩ => rfl))
    (fun q => funext fun c => Fin.ext (by match c with | ⟨0, _⟩ => rfl | ⟨1, _⟩ => rfl))

/-- A (H Wm): the mean before rectification. -/
theorem v3_eq (x0 : Vec Ideal S10000x10000 .f32) (x1 : Vec Ideal S10000x128 .f32) (x2 : Vec Ideal S128x64 .f32)
    (x3 : Vec Ideal S64x16 .f32) :
    val_main_v3 (F := Ideal) x0 x1 x2 x3 = unc (mm (cur x0) (mm (mm (cur x0) (mm (cur x1) (cur x2))) (cur x3))) := by
  funext i
  obtain ⟨a, b, rfl⟩ : ∃ a b, i = ValueIdx.ix2 a b := ⟨i 0, i 1, ValueIdx.eq_ix2 i⟩
  rw [val_main_v3_apply, v2_eq]
  exact dot_read x0 (unc (mm (mm (cur x0) (mm (cur x1) (cur x2))) (cur x3))) (lidx_main_v3 (ValueIdx.ix2 a b)) (ridx_main_v3 (ValueIdx.ix2 a b)) a b
    (fun q => funext fun c => Fin.ext (by match c with | ⟨0, _⟩ => rfl | ⟨1, _⟩ => rfl))
    (fun q => funext fun c => Fin.ext (by match c with | ⟨0, _⟩ => rfl | ⟨1, _⟩ => rfl))

/-- H Wl: the hidden layer times the log-deviation weights. -/
theorem v5_eq (x0 : Vec Ideal S10000x10000 .f32) (x1 : Vec Ideal S10000x128 .f32) (x2 : Vec Ideal S128x64 .f32)
    (x4 : Vec Ideal S64x16 .f32) :
    val_main_v5 (F := Ideal) x0 x1 x2 x4 = unc (mm (mm (cur x0) (mm (cur x1) (cur x2))) (cur x4)) := by
  funext i
  obtain ⟨a, b, rfl⟩ : ∃ a b, i = ValueIdx.ix2 a b := ⟨i 0, i 1, ValueIdx.eq_ix2 i⟩
  rw [val_main_v5_apply, v1_eq]
  exact dot_read (unc (mm (cur x0) (mm (cur x1) (cur x2)))) x4 (lidx_main_v5 (ValueIdx.ix2 a b)) (ridx_main_v5 (ValueIdx.ix2 a b)) a b
    (fun q => funext fun c => Fin.ext (by match c with | ⟨0, _⟩ => rfl | ⟨1, _⟩ => rfl))
    (fun q => funext fun c => Fin.ext (by match c with | ⟨0, _⟩ => rfl | ⟨1, _⟩ => rfl))

/-- A (H Wl): the log-deviation before rectification. -/
theorem v6_eq (x0 : Vec Ideal S10000x10000 .f32) (x1 : Vec Ideal S10000x128 .f32) (x2 : Vec Ideal S128x64 .f32)
    (x4 : Vec Ideal S64x16 .f32) :
    val_main_v6 (F := Ideal) x0 x1 x2 x4 = unc (mm (cur x0) (mm (mm (cur x0) (mm (cur x1) (cur x2))) (cur x4))) := by
  funext i
  obtain ⟨a, b, rfl⟩ : ∃ a b, i = ValueIdx.ix2 a b := ⟨i 0, i 1, ValueIdx.eq_ix2 i⟩
  rw [val_main_v6_apply, v5_eq]
  exact dot_read x0 (unc (mm (mm (cur x0) (mm (cur x1) (cur x2))) (cur x4))) (lidx_main_v6 (ValueIdx.ix2 a b)) (ridx_main_v6 (ValueIdx.ix2 a b)) a b
    (fun q => funext fun c => Fin.ext (by match c with | ⟨0, _⟩ => rfl | ⟨1, _⟩ => rfl))
    (fun q => funext fun c => Fin.ext (by match c with | ⟨0, _⟩ => rfl | ⟨1, _⟩ => rfl))

/-- The constant the first rectification compares with is zero at every index. -/
theorem zero0_eq (i : S10000x16.Idx) : val_main_call0_v0 (F := Ideal) i = 0 := by
  rw [val_main_call0_v0_apply, val_main_call0_cst_apply, Ideal.ofBits_def, Ideal.ofBits_zero_f32]

/-- The constant the second rectification compares with is zero at every index. -/
theorem zero1_eq (i : S10000x16.Idx) : val_main_call1_v0 (F := Ideal) i = 0 := by
  rw [val_main_call1_v0_apply, val_main_call1_cst_apply, Ideal.ofBits_def, Ideal.ofBits_zero_f32]

/-- Z = E ⊙ exp (relu (A (H Wl))) + relu (A (H Wm)): the sample, entry by entry. -/
theorem v10_eq (x0 : Vec Ideal S10000x10000 .f32) (x1 : Vec Ideal S10000x128 .f32) (x2 : Vec Ideal S128x64 .f32)
    (x3 x4 : Vec Ideal S64x16 .f32) (x5 : Vec Ideal S10000x16 .f32) :
    val_main_v10 (F := Ideal) x0 x1 x2 x3 x4 x5 = unc (referenceZ (cur x0) (cur x1) (cur x2) (cur x3) (cur x4) (cur x5)) := by
  funext i
  obtain ⟨a, b, rfl⟩ : ∃ a b, i = ValueIdx.ix2 a b := ⟨i 0, i 1, ValueIdx.eq_ix2 i⟩
  rw [val_main_v10_apply, val_main_v9_apply, val_main_v8_apply, val_main_v7_apply, val_main_v4_apply, zero0_eq, zero1_eq,
    v6_eq, v3_eq, Ideal.addf_def, Ideal.mulf_def, Ideal.maximumf_def, Ideal.maximumf_def, Ideal.hostUnary_exp_def]
  rfl

/-- The reference's last stage is the specification's reference function of the arguments. -/
theorem reference_eq (x0 : Vec Ideal S10000x10000 .f32) (x1 : Vec Ideal S10000x128 .f32) (x2 : Vec Ideal S128x64 .f32)
    (x3 x4 : Vec Ideal S64x16 .f32) (x5 : Vec Ideal S10000x16 .f32) :
    val_main_v12 (F := Ideal) x0 x1 x2 x3 x4 x5 = unc (referenceOut (cur x0) (cur x1) (cur x2) (cur x3) (cur x4) (cur x5)) := by
  funext i
  obtain ⟨a, b, rfl⟩ : ∃ a b, i = ValueIdx.ix2 a b := ⟨i 0, i 1, ValueIdx.eq_ix2 i⟩
  rw [val_main_v12_apply]
  simp only [val_main_v11_apply]
  rw [v10_eq]
  exact Finset.sum_congr rfl fun e _ => rfl

end Cert.ReferenceIdeal.RefValue

end
-- ==== Proof.Finite.lean ====
/-
  From the precondition — the absolute value of every entry of every argument is below +∞ — to: every entry of every
  argument is a real number.
-/
import proofs.«128000_g55903294324759_cont_9to1c4b_598_2_alg».proof.Defs
import proofs.«128000_g55903294324759_cont_9to1c4b_598_2_alg».proof.Proof.Gen.Pre_finite_inputs
import proofs.«128000_g55903294324759_cont_9to1c4b_598_2_alg».proof.Proof.Spec
import Idealize.ShloMosaic.Lib.ReduceAll
import Idealize.ShloMosaic.Lib.IdealHost

noncomputable section

namespace Cert.Finite

open Idealize.ShloMosaic Cert.Spec

/-- The rank-0 shape has exactly one index: there is no axis to give a coordinate on. -/
instance subsingleton_scalarIdx : Subsingleton Cert.Pre_finite_inputs.S_.Idx :=
  ⟨fun a b => funext fun d => d.elim0⟩

/-- The f32 pattern 0x7F800000 (sign 0, exponent all ones, fraction 0) is +∞. -/
theorem ofBits_posInf : Ideal.ofBits .f32 0x7F800000#32 = (⊤ : EReal) := by
  simp [Ideal.ofBits, Ideal.ieee]

/-- An extended real whose absolute value max x (−x) is below +∞ is a real number: at ⊤ and at ⊥ that maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the compared array: where the comparison |x i| < +∞ (the scalar +∞ broadcast to the whole shape)
    answers 1, the entry x i is a real number. -/
theorem real_of_cmp_one {s : Shape} (hb : Cert.Pre_finite_inputs.S_.BroadcastsInDim s (![] : Fin 0 → Fin s.rank))
    (x : FVec Ideal s .f32) (i : s.Idx)
    (h : cmpf .olt (Host.absf x)
      (broadcastInDim s ![] hb (constant (F := Ideal) Cert.Pre_finite_inputs.S_ .f32 0x7F800000#32)) i = 1#1) :
    ∃ r : ℝ, x i = (r : EReal) := by
  rw [ValueIdx.cmpf_apply, ValueIdx.broadcastInDim_scalar_apply, ValueIdx.constant_apply, ofBits_posInf] at h
  refine real_of_abs_lt_top (x i) ?_
  change Ideal.cmp .olt (max (x i) (-(x i))) ⊤ = 1#1 at h
  by_contra hn
  simp [Ideal.cmp, hn] at h

/-- A whole argument: where the conjunction over all entries of |x| < +∞ is 1, every entry of the matrix is real. -/
theorem isReal_of_all {n m : Nat}
    (hb : Cert.Pre_finite_inputs.S_.BroadcastsInDim (⟨2, ![n, m]⟩ : Shape) (![] : Fin 0 → Fin 2))
    (hr : (⟨2, ![n, m]⟩ : Shape).ReducesTo [0, 1] Cert.Pre_finite_inputs.S_)
    (hu : 0 < Cert.Pre_finite_inputs.S_.numel)
    (x : FVec Ideal (⟨2, ![n, m]⟩ : Shape) .f32) (init : IVec Cert.Pre_finite_inputs.S_ 1)
    (h : Host.reduce IntOp.andi (cmpf .olt (Host.absf x)
      (broadcastInDim (⟨2, ![n, m]⟩ : Shape) ![] hb (constant (F := Ideal) Cert.Pre_finite_inputs.S_ .f32 0x7F800000#32)))
      init hr hu ValueIdx.ix0 = 1#1) :
    IsReal (cur x) := fun i j =>
  real_of_cmp_one hb x (ValueIdx.ix2 i j) (Host.reduce_andi_all _ init hr hu ValueIdx.ix0 h _)

/-- Where the printed predicate is all ones at the ideal instance, every entry of each argument is a real number. -/
theorem isReal_of_fn [Cert.Pre_finite_inputs.Facts]
    (x0 : Vec Ideal Cert.Pre_finite_inputs.S10000x10000 .f32) (x1 : Vec Ideal Cert.Pre_finite_inputs.S10000x128 .f32)
    (x2 : Vec Ideal Cert.Pre_finite_inputs.S128x64 .f32) (x3 x4 : Vec Ideal Cert.Pre_finite_inputs.S64x16 .f32)
    (x5 : Vec Ideal Cert.Pre_finite_inputs.S10000x16 .f32)
    (h : Cert.Pre_finite_inputs.fn (F := Ideal) x0 x1 x2 x3 x4 x5 = (fun _ => 1#1)) :
    IsReal (cur x0) ∧ IsReal (cur x1) ∧ IsReal (cur x2) ∧ IsReal (cur x3) ∧ IsReal (cur x4) ∧ IsReal (cur x5) := by
  have h0 := congrFun h ValueIdx.ix0
  dsimp only [Cert.Pre_finite_inputs.fn, Cert.Pre_finite_inputs.fn_part1] at h0
  simp only [andi, IntOp.andi_eq_one] at h0
  obtain ⟨⟨⟨⟨⟨h0, h1⟩, h2⟩, h3⟩, h4⟩, h5⟩ := h0
  exact ⟨isReal_of_all _ _ _ x0 _ h0, isReal_of_all _ _ _ x1 _ h1, isReal_of_all _ _ _ x2 _ h2,
    isReal_of_all _ _ _ x3 _ h3, isReal_of_all _ _ _ x4 _ h4, isReal_of_all _ _ _ x5 _ h5⟩

end Cert.Finite

end
-- ==== Proof.lean ====
/-
  The certificate. With A the adjacency matrix, X the features, Wb, Wm, Wl the weights and E the noise, the kernel
  computes P = X (Wb [Wm | Wl]), G = A P, M = relu (A G), Z = E ⊙ exp(M[:, 16:]) + M[:, :16] and Z Zᵀ in four
  pallas_calls; the reference computes H = A (X Wb), relu (A (H Wm)), relu (A (H Wl)), the same Z and Z Zᵀ.

  The three frames: each program runs to the end, faults nowhere and leaves its arguments as launched — the kernel's
  two instances by the run of their five items (a host concatenation and four pipelined regions, the last with two
  windows on one array, each holding it at half the share), the reference's by its run read back.
  The ideal pass rewrote nothing, so its conjunct is trivial.
  The value claim: at the ideal instance the kernel's result array is, entry by entry, a function of the six argument
  arrays (each region's write-backs cover its result array, block t being rows 400 t … 400 t + 399), the reference's
  result is another, and the two agree wherever A, X and the weights have real entries — which the precondition
  gives — because the matrix product of real matrices is associative and distributes over the two column blocks.
-/
import proofs.«128000_g55903294324759_cont_9to1c4b_598_2_alg».proof.Defs
import proofs.«128000_g55903294324759_cont_9to1c4b_598_2_alg».proof.Proof.Gen.Kernel
import proofs.«128000_g55903294324759_cont_9to1c4b_598_2_alg».proof.Proof.Gen.KernelIdeal
import proofs.«128000_g55903294324759_cont_9to1c4b_598_2_alg».proof.Proof.Gen.ReferenceIdeal
import proofs.«128000_g55903294324759_cont_9to1c4b_598_2_alg».proof.Proof.Gen.Pre_finite_inputs
import proofs.«128000_g55903294324759_cont_9to1c4b_598_2_alg».proof.Proof.K.Keep
import proofs.«128000_g55903294324759_cont_9to1c4b_598_2_alg».proof.Proof.KI.Final
import proofs.«128000_g55903294324759_cont_9to1c4b_598_2_alg».proof.Proof.RefBridge
import proofs.«128000_g55903294324759_cont_9to1c4b_598_2_alg».proof.Proof.Finite
import proofs.«128000_g55903294324759_cont_9to1c4b_598_2_alg».proof.Proof.Spec
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Regions.frame m ρ
theorem frame_ki : Cert.frame_KernelIdeal := fun m ρ _ => Cert.KernelIdeal.Regions.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel's function of the arguments is the reference's where the
    adjacency matrix, the features and the weights are real. -/
theorem algebraic : Cert.algebraic_KernelIdeal_ReferenceIdeal := by
  intro m ρ m' ρ' hpre hagree
  refine ⟨_, Cert.KernelIdeal.Regions.value_run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, -⟩ := Cert.Finite.isReal_of_fn _ _ _ _ _ _ (hpre c)
  rw [Cert.ReferenceIdeal.Read.val_main_v12_eq, Cert.ReferenceIdeal.RefValue.reference_eq,
    (hagree c).1, (hagree c).2.1, (hagree c).2.2.1, (hagree c).2.2.2.1, (hagree c).2.2.2.2.1, (hagree c).2.2.2.2.2]
  exact congrArg unc (kernelOut_eq_referenceOut _ _ _ _ _ _ r0 r1 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
